-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x32000 : Shape := ⟨3, ![2, 4096, 32000]⟩
abbrev S2x4096 : Shape := ⟨2, ![2, 4096]⟩
abbrev S_ : Shape := ⟨0, ![]⟩

class Facts : Prop where
  bcast_S_S2x4096x32000 : S_.BroadcastsInDim S2x4096x32000 (![] : Fin 0 → Fin S2x4096x32000.rank)
  reducesTo_S2x4096x32000_S_d0_1_2 : S2x4096x32000.ReducesTo [0, 1, 2] S_
  h_S_ : 0 < S_.numel
  bcast_S_S2x4096 : S_.BroadcastsInDim S2x4096 (![] : Fin 0 → Fin S2x4096.rank)
  reducesTo_S2x4096_S_d0_1 : S2x4096.ReducesTo [0, 1] S_

variable [Facts]

def fn {F : FTy → Type} [FloatOps F] (main_arg0 : FVec F S2x4096x32000 .f32) (main_arg1 : IVec S2x4096 32) : IVec S_ 1 :=
  let main_v0 : FVec F S2x4096x32000 .f32 := Host.absf main_arg0
  let main_cst : FVec F S_ .f32 := constant S_ .f32 0x7F800000#32
  let main_v1 : FVec F S2x4096x32000 .f32 := broadcastInDim S2x4096x32000 ![] bcast_S_S2x4096x32000 main_cst
  let main_v2 : IVec S2x4096x32000 1 := cmpf .olt main_v0 main_v1
  let main_c : IVec S_ 1 := constantI S_ 1 1#1
  let main_v3 : IVec S_ 1 := (fun x v => Host.reduce IntOp.andi x v reducesTo_S2x4096x32000_S_d0_1_2 h_S_) main_v2 main_c
  let main_c_0 : IVec S_ 32 := constantI S_ 32 0#32
  let main_v4 : IVec S2x4096 32 := broadcastInDim S2x4096 ![] bcast_S_S2x4096 main_c_0
  let main_v5 : IVec S2x4096 1 := cmpi .sge main_arg1 main_v4
  let main_c_1 : IVec S_ 1 := constantI S_ 1 1#1
  let main_v6 : IVec S_ 1 := (fun x v => Host.reduce IntOp.andi x v reducesTo_S2x4096_S_d0_1 h_S_) main_v5 main_c_1
  let main_v7 : IVec S_ 1 := andi main_v3 main_v6
  let main_c_2 : IVec S_ 32 := constantI S_ 32 32000#32
  let main_v8 : IVec S2x4096 32 := broadcastInDim S2x4096 ![] bcast_S_S2x4096 main_c_2
  let main_v9 : IVec S2x4096 1 := cmpi .slt main_arg1 main_v8
  let main_c_3 : IVec S_ 1 := constantI S_ 1 1#1
  let main_v10 : IVec S_ 1 := (fun x v => Host.reduce IntOp.andi x v reducesTo_S2x4096_S_d0_1 h_S_) main_v9 main_c_3
  let main_v11 : IVec S_ 1 := andi main_v7 main_v10
  main_v11
-- ==== Kernel.lean ====
abbrev S2x4096x32000 : Shape := ⟨3, ![2, 4096, 32000]⟩
abbrev S2x4096 : Shape := ⟨2, ![2, 4096]⟩
abbrev S_ : Shape := ⟨0, ![]⟩
abbrev S2x4094 : Shape := ⟨2, ![2, 4094]⟩
abbrev S1 : Shape := ⟨1, ![1]⟩
abbrev S2x4095 : Shape := ⟨2, ![2, 4095]⟩
abbrev S2x4096x1 : Shape := ⟨3, ![2, 4096, 1]⟩
abbrev S2x1x1 : Shape := ⟨3, ![2, 1, 1]⟩
abbrev S1x128x32000 : Shape := ⟨3, ![1, 128, 32000]⟩
abbrev S1x128x1 : Shape := ⟨3, ![1, 128, 1]⟩
abbrev S1x1x1 : Shape := ⟨3, ![1, 1, 1]⟩
abbrev S1x128x3200 : Shape := ⟨3, ![1, 128, 3200]⟩
abbrev S1x128 : Shape := ⟨2, ![1, 128]⟩
abbrev S1x1 : Shape := ⟨2, ![1, 1]⟩

abbrev nBuf : Space → Nat
  | .hbm => 72
  | .vmem => 11
  | .smem => 0
  | _ => 0

abbrev bufTy : (tb : Table) → Fin (tcTables nBuf tb) → BufTy
  | .hbm, ⟨0, _⟩ => ⟨S2x4096x32000, .f32⟩
  | .hbm, ⟨1, _⟩ => ⟨S2x4096, .i32⟩
  | .hbm, ⟨2, _⟩ => ⟨S_, .i1⟩
  | .hbm, ⟨3, _⟩ => ⟨S2x4096, .i1⟩
  | .hbm, ⟨4, _⟩ => ⟨S_, .i1⟩
  | .hbm, ⟨5, _⟩ => ⟨S2x4094, .i1⟩
  | .hbm, ⟨6, _⟩ => ⟨S2x4094, .i32⟩
  | .hbm, ⟨7, _⟩ => ⟨S_, .i32⟩
  | .hbm, ⟨8, _⟩ => ⟨S2x4094, .i32⟩
  | .hbm, ⟨9, _⟩ => ⟨S2x4094, .i1⟩
  | .hbm, ⟨10, _⟩ => ⟨S2x4094, .i1⟩
  | .hbm, ⟨11, _⟩ => ⟨S2x4094, .i32⟩
  | .hbm, ⟨12, _⟩ => ⟨S_, .i32⟩
  | .hbm, ⟨13, _⟩ => ⟨S2x4094, .i32⟩
  | .hbm, ⟨14, _⟩ => ⟨S2x4094, .i1⟩
  | .hbm, ⟨15, _⟩ => ⟨S2x4094, .i1⟩
  | .hbm, ⟨16, _⟩ => ⟨S2x4094, .i32⟩
  | .hbm, ⟨17, _⟩ => ⟨S_, .i32⟩
  | .hbm, ⟨18, _⟩ => ⟨S2x4094, .i32⟩
  | .hbm, ⟨19, _⟩ => ⟨S2x4094, .i1⟩
  | .hbm, ⟨20, _⟩ => ⟨S2x4094, .i1⟩
  | .hbm, ⟨21, _⟩ => ⟨S2x4094, .i1⟩
  | .hbm, ⟨22, _⟩ => ⟨S2x4094, .i1⟩
  | .hbm, ⟨23, _⟩ => ⟨S_, .i32⟩
  | .hbm, ⟨24, _⟩ => ⟨S1, .i32⟩
  | .hbm, ⟨25, _⟩ => ⟨S2x4096, .i1⟩
  | .hbm, ⟨26, _⟩ => ⟨S2x4094, .i1⟩
  | .hbm, ⟨27, _⟩ => ⟨S2x4094, .i1⟩
  | .hbm, ⟨28, _⟩ => ⟨S_, .i32⟩
  | .hbm, ⟨29, _⟩ => ⟨S1, .i32⟩
  | .hbm, ⟨30, _⟩ => ⟨S2x4096, .i1⟩
  | .hbm, ⟨31, _⟩ => ⟨S2x4094, .i1⟩
  | .hbm, ⟨32, _⟩ => ⟨S2x4094, .i1⟩
  | .hbm, ⟨33, _⟩ => ⟨S_, .i32⟩
  | .hbm, ⟨34, _⟩ => ⟨S1, .i32⟩
  | .hbm, ⟨35, _⟩ => ⟨S2x4096, .i1⟩
  | .hbm, ⟨36, _⟩ => ⟨S_, .i1⟩
  | .hbm, ⟨37, _⟩ => ⟨S2x4095, .i1⟩
  | .hbm, ⟨38, _⟩ => ⟨S2x4095, .i32⟩
  | .hbm, ⟨39, _⟩ => ⟨S_, .i32⟩
  | .hbm, ⟨40, _⟩ => ⟨S2x4095, .i32⟩
  | .hbm, ⟨41, _⟩ => ⟨S2x4095, .i1⟩
  | .hbm, ⟨42, _⟩ => ⟨S2x4095, .i1⟩
  | .hbm, ⟨43, _⟩ => ⟨S2x4095, .i32⟩
  | .hbm, ⟨44, _⟩ => ⟨S_, .i32⟩
  | .hbm, ⟨45, _⟩ => ⟨S2x4095, .i32⟩
  | .hbm, ⟨46, _⟩ => ⟨S2x4095, .i1⟩
  | .hbm, ⟨47, _⟩ => ⟨S2x4095, .i1⟩
  | .hbm, ⟨48, _⟩ => ⟨S2x4095, .i1⟩
  | .hbm, ⟨49, _⟩ => ⟨S2x4095, .i1⟩
  | .hbm, ⟨50, _⟩ => ⟨S_, .i32⟩
  | .hbm, ⟨51, _⟩ => ⟨S1, .i32⟩
  | .hbm, ⟨52, _⟩ => ⟨S2x4096, .i1⟩
  | .hbm, ⟨53, _⟩ => ⟨S2x4095, .i1⟩
  | .hbm, ⟨54, _⟩ => ⟨S2x4095, .i1⟩
  | .hbm, ⟨55, _⟩ => ⟨S_, .i32⟩
  | .hbm, ⟨56, _⟩ => ⟨S1, .i32⟩
  | .hbm, ⟨57, _⟩ => ⟨S2x4096, .i1⟩
  | .hbm, ⟨58, _⟩ => ⟨S_, .f32⟩
  | .hbm, ⟨59, _⟩ => ⟨S_, .f32⟩
  | .hbm, ⟨60, _⟩ => ⟨S2x4096, .f32⟩
  | .hbm, ⟨61, _⟩ => ⟨S2x4096, .f32⟩
  | .hbm, ⟨62, _⟩ => ⟨S2x4096, .f32⟩
  | .hbm, ⟨63, _⟩ => ⟨S2x4096, .f32⟩
  | .hbm, ⟨64, _⟩ => ⟨S2x4096x1, .i32⟩
  | .hbm, ⟨65, _⟩ => ⟨S2x4096x1, .f32⟩
  | .hbm, ⟨66, _⟩ => ⟨S2x1x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .local _ .vmem, ⟨0, _⟩ => ⟨S1x128x32000, .f32⟩
  | .local _ .vmem, ⟨1, _⟩ => ⟨S1x128x32000, .f32⟩
  | .local _ .vmem, ⟨2, _⟩ => ⟨S1x128x1, .i32⟩
  | .local _ .vmem, ⟨3, _⟩ => ⟨S1x128x1, .i32⟩
  | .local _ .vmem, ⟨4, _⟩ => ⟨S1x128x1, .f32⟩
  | .local _ .vmem, ⟨5, _⟩ => ⟨S1x128x1, .f32⟩
  | .local _ .vmem, ⟨6, _⟩ => ⟨S1x1x1, .f32⟩
  | .local _ .vmem, ⟨7, _⟩ => ⟨S1x1x1, .f32⟩
  | .local _ .vmem, ⟨8, _⟩ => ⟨S1x128x1, .f32⟩
  | .local _ .vmem, ⟨9, _⟩ => ⟨S1x128x1, .f32⟩
  | .local _ .vmem, ⟨10, _⟩ => ⟨S1x128x1, .f32⟩
  | _, _ => ⟨S2x4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_c_7 : Ref sig .tc := ⟨.hbm, 36, rfl⟩
abbrev main_v26 : Ref sig .tc := ⟨.hbm, 37, rfl⟩
abbrev main_v27 : Ref sig .tc := ⟨.hbm, 38, rfl⟩
abbrev main_c_8 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_10 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_11 : Ref sig .tc := ⟨.hbm, 55, rfl⟩
abbrev main_v41 : Ref sig .tc := ⟨.hbm, 56, rfl⟩
abbrev main_v42 : Ref sig .tc := ⟨.hbm, 57, rfl⟩
abbrev main_cst : Ref sig .tc := ⟨.hbm, 58, rfl⟩
abbrev main_cst_12 : Ref sig .tc := ⟨.hbm, 59, rfl⟩
abbrev main_call0_v0 : Ref sig .tc := ⟨.hbm, 60, rfl⟩
abbrev main_call0_v1 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_17 : BitVec 32 := 0#32
  let c10_i32 : BitVec 32 := 10#32
  let v19 : BitVec 32 := Scalar.addi c0_i32_17 c10_i32
  let c1_i32 : BitVec 32 := 1#32
  ⟨c0_i32_17, v19, c1_i32⟩
def k0_mult1 (k0_t1 : Fin k0_t1_loop.trips) : BitVec 32 :=
  let c0_i32_36 : BitVec 32 := 0#32
  let c0_i32_17 : BitVec 32 := 0#32
  let c1_i32 : BitVec 32 := 1#32
  let arg9 : BitVec 32 := Scf.iv c0_i32_17 c1_i32 k0_t1
  let c1_i32_35 : BitVec 32 := 1#32
  let v33 : BitVec 32 := Scalar.muli arg9 c1_i32_35
  let v34 : BitVec 32 := Scalar.addi c0_i32_36 v33
  let c3200_i32 : BitVec 32 := 3200#32
  let v35 : BitVec 32 := Scalar.muli v34 c3200_i32
  v35
def k0_off1 (k0_t1 : Fin k0_t1_loop.trips) : Fin 3 → Nat :=
  let c0_37 : Index := 0#32
  let c0_38 : Index := 0#32
  let c0_i32_36 : BitVec 32 := 0#32
  let c0_i32_17 : BitVec 32 := 0#32
  let c1_i32 : BitVec 32 := 1#32
  let arg9 : BitVec 32 := Scf.iv c0_i32_17 c1_i32 k0_t1
  let c1_i32_35 : BitVec 32 := 1#32
  let v33 : BitVec 32 := Scalar.muli arg9 c1_i32_35
  let v34 : BitVec 32 := Scalar.addi c0_i32_36 v33
  let c3200_i32 : BitVec 32 := 3200#32
  let v35 : BitVec 32 := Scalar.muli v34 c3200_i32
  let v36 : BitVec 32 := v35
  let v37 : Index := Scalar.indexCast v36
  ![0, 0, v37.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S2x4096 : S_.BroadcastsInDim S2x4096 (![] : Fin 0 → Fin S2x4096.rank)
  bcast_S_S2x4094 : S_.BroadcastsInDim S2x4094 (![] : Fin 0 → Fin S2x4094.rank)
  slices_S2x4096_S2x4094_0_0 : S2x4096.Slices ![0, 0] S2x4094
  slices_S2x4096_S2x4094_0_1 : S2x4096.Slices ![0, 1] S2x4094
  slices_S2x4096_S2x4094_0_2 : S2x4096.Slices ![0, 2] S2x4094
  bcast_S_S1 : S_.BroadcastsInDim S1 (![] : Fin 0 → Fin S1.rank)
  bcast_S_S2x4095 : S_.BroadcastsInDim S2x4095 (![] : Fin 0 → Fin S2x4095.rank)
  slices_S2x4096_S2x4095_0_0 : S2x4096.Slices ![0, 0] S2x4095
  slices_S2x4096_S2x4095_0_1 : S2x4096.Slices ![0, 1] S2x4095
  shapeCasts_S2x4096_S2x4096x1 : S2x4096.ShapeCasts S2x4096x1
  inb_S1x1x1_S1x1x1_0_0_0 : ∀ a, (![0, 0, 0] : Fin 3 → Nat) a + S1x1x1.size a ≤ S1x1x1.size a
  h_S1x1x1 : 0 < S1x1x1.numel
  inb_S1x128x1_S1x128x1_0_0_0 : ∀ a, (![0, 0, 0] : Fin 3 → Nat) a + S1x128x1.size a ≤ S1x128x1.size a
  h_S1x128x1 : 0 < S1x128x1.numel
  shapeCasts_S1x128x1_S1x128x1 : S1x128x1.ShapeCasts S1x128x1
  h_S1x128x3200 : 0 < S1x128x3200.numel
  reduces_S1x128x3200_S1x128 : S1x128x3200.Reduces [2] S1x128
  shapeCasts_S1x128_S1x128x1 : S1x128.ShapeCasts S1x128x1
  broadcasts_S1x128x1_S1x128x3200 : S1x128x1.Broadcasts S1x128x3200
  iota_S1x128x3200_d2_w32 : S1x128x3200.Iotas .tc 32 [2]
  reduces_S1x128x1_S1x1 : S1x128x1.Reduces [1] S1x1
  shapeCasts_S1x1_S1x1x1 : S1x1.ShapeCasts S1x1x1
  shapeCasts_S1x1x1_S1x1x1 : S1x1x1.ShapeCasts S1x1x1
  reducesTo_S2x1x1_S_d0_1_2 : S2x1x1.ReducesTo [0, 1, 2] S_
  h_S_ : 0 < S_.numel
  reducesTo_S2x4096_S_d0_1 : S2x4096.ReducesTo [0, 1] S_
  scatter_S2x4096_S1_S2x4094_01_n_1_0_wf : ScatterDims.WF S2x4096 S1 S2x4094 [0, 1] [] [1] 0
  scatter_S2x4096_S1_S2x4095_01_n_1_0_wf : ScatterDims.WF S2x4096 S1 S2x4095 [0, 1] [] [1] 0
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x3200.size a ≤ S1x128x32000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32000.size a ≤ S2x4096x32000.size a
  hwx0_0 : ∀ i : grid0.Coords, EltTy.bits .f32 = 32 ∨ (Rect.block (s := S2x4096x32000) S1x128x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S2x4096x1.size a
  hwx0_1 : ∀ i : grid0.Coords, EltTy.bits .i32 = 32 ∨ (Rect.block (s := S2x4096x1) S1x128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S2x4096x1.size a
  hwx0_2 : ∀ i : grid0.Coords, EltTy.bits .f32 = 32 ∨ (Rect.block (s := S2x4096x1) S1x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def scatter_S2x4096_S1_S2x4094_01_n_1_0 : ScatterDims S2x4096 S1 S2x4094 where
  updateWindowDims := [0, 1]
  insertedWindowDims := []
  scatterDimsToOperandDims := [1]
  indexVectorDim := 0
  wf := scatter_S2x4096_S1_S2x4094_01_n_1_0_wf
def scatter_S2x4096_S1_S2x4095_01_n_1_0 : ScatterDims S2x4096 S1 S2x4095 where
  updateWindowDims := [0, 1]
  insertedWindowDims := []
  scatterDimsToOperandDims := [1]
  indexVectorDim := 0
  wf := scatter_S2x4096_S1_S2x4095_01_n_1_0_wf

abbrev win0_0 : Pipeline.Window sig grid0 :=
  Pipeline.Window.ofSpec (Memref.whole main_arg0) S1x128x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x32000 : Shape := ⟨3, ![2, 4096, 32000]⟩
abbrev S2x4096 : Shape := ⟨2, ![2, 4096]⟩
abbrev S_ : Shape := ⟨0, ![]⟩
abbrev S2x4094 : Shape := ⟨2, ![2, 4094]⟩
abbrev S1 : Shape := ⟨1, ![1]⟩
abbrev S2x4095 : Shape := ⟨2, ![2, 4095]⟩
abbrev S2x4096x1 : Shape := ⟨3, ![2, 4096, 1]⟩
abbrev S2x4096x1x1 : Shape := ⟨4, ![2, 4096, 1, 1]⟩
abbrev S1x1x1x1 : Shape := ⟨4, ![1, 1, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S2x4096x32000, .f32⟩
  | .hbm, ⟨1, _⟩ => ⟨S2x4096, .i32⟩
  | .hbm, ⟨2, _⟩ => ⟨S_, .i1⟩
  | .hbm, ⟨3, _⟩ => ⟨S2x4096, .i1⟩
  | .hbm, ⟨4, _⟩ => ⟨S_, .i1⟩
  | .hbm, ⟨5, _⟩ => ⟨S2x4094, .i1⟩
  | .hbm, ⟨6, _⟩ => ⟨S2x4094, .i32⟩
  | .hbm, ⟨7, _⟩ => ⟨S_, .i32⟩
  | .hbm, ⟨8, _⟩ => ⟨S2x4094, .i32⟩
  | .hbm, ⟨9, _⟩ => ⟨S2x4094, .i1⟩
  | .hbm, ⟨10, _⟩ => ⟨S2x4094, .i1⟩
  | .hbm, ⟨11, _⟩ => ⟨S2x4094, .i32⟩
  | .hbm, ⟨12, _⟩ => ⟨S_, .i32⟩
  | .hbm, ⟨13, _⟩ => ⟨S2x4094, .i32⟩
  | .hbm, ⟨14, _⟩ => ⟨S2x4094, .i1⟩
  | .hbm, ⟨15, _⟩ => ⟨S2x4094, .i1⟩
  | .hbm, ⟨16, _⟩ => ⟨S2x4094, .i32⟩
  | .hbm, ⟨17, _⟩ => ⟨S_, .i32⟩
  | .hbm, ⟨18, _⟩ => ⟨S2x4094, .i32⟩
  | .hbm, ⟨19, _⟩ => ⟨S2x4094, .i1⟩
  | .hbm, ⟨20, _⟩ => ⟨S2x4094, .i1⟩
  | .hbm, ⟨21, _⟩ => ⟨S2x4094, .i1⟩
  | .hbm, ⟨22, _⟩ => ⟨S2x4094, .i1⟩
  | .hbm, ⟨23, _⟩ => ⟨S_, .i32⟩
  | .hbm, ⟨24, _⟩ => ⟨S1, .i32⟩
  | .hbm, ⟨25, _⟩ => ⟨S2x4096, .i1⟩
  | .hbm, ⟨26, _⟩ => ⟨S2x4094, .i1⟩
  | .hbm, ⟨27, _⟩ => ⟨S2x4094, .i1⟩
  | .hbm, ⟨28, _⟩ => ⟨S_, .i32⟩
  | .hbm, ⟨29, _⟩ => ⟨S1, .i32⟩
  | .hbm, ⟨30, _⟩ => ⟨S2x4096, .i1⟩
  | .hbm, ⟨31, _⟩ => ⟨S2x4094, .i1⟩
  | .hbm, ⟨32, _⟩ => ⟨S2x4094, .i1⟩
  | .hbm, ⟨33, _⟩ => ⟨S_, .i32⟩
  | .hbm, ⟨34, _⟩ => ⟨S1, .i32⟩
  | .hbm, ⟨35, _⟩ => ⟨S2x4096, .i1⟩
  | .hbm, ⟨36, _⟩ => ⟨S_, .i1⟩
  | .hbm, ⟨37, _⟩ => ⟨S2x4095, .i1⟩
  | .hbm, ⟨38, _⟩ => ⟨S2x4095, .i32⟩
  | .hbm, ⟨39, _⟩ => ⟨S_, .i32⟩
  | .hbm, ⟨40, _⟩ => ⟨S2x4095, .i32⟩
  | .hbm, ⟨41, _⟩ => ⟨S2x4095, .i1⟩
  | .hbm, ⟨42, _⟩ => ⟨S2x4095, .i1⟩
  | .hbm, ⟨43, _⟩ => ⟨S2x4095, .i32⟩
  | .hbm, ⟨44, _⟩ => ⟨S_, .i32⟩
  | .hbm, ⟨45, _⟩ => ⟨S2x4095, .i32⟩
  | .hbm, ⟨46, _⟩ => ⟨S2x4095, .i1⟩
  | .hbm, ⟨47, _⟩ => ⟨S2x4095, .i1⟩
  | .hbm, ⟨48, _⟩ => ⟨S2x4095, .i1⟩
  | .hbm, ⟨49, _⟩ => ⟨S2x4095, .i1⟩
  | .hbm, ⟨50, _⟩ => ⟨S_, .i32⟩
  | .hbm, ⟨51, _⟩ => ⟨S1, .i32⟩
  | .hbm, ⟨52, _⟩ => ⟨S2x4096, .i1⟩
  | .hbm, ⟨53, _⟩ => ⟨S2x4095, .i1⟩
  | .hbm, ⟨54, _⟩ => ⟨S2x4095, .i1⟩
  | .hbm, ⟨55, _⟩ => ⟨S_, .i32⟩
  | .hbm, ⟨56, _⟩ => ⟨S1, .i32⟩
  | .hbm, ⟨57, _⟩ => ⟨S2x4096, .i1⟩
  | .hbm, ⟨58, _⟩ => ⟨S_, .f32⟩
  | .hbm, ⟨59, _⟩ => ⟨S_, .f32⟩
  | .hbm, ⟨60, _⟩ => ⟨S2x4096, .f32⟩
  | .hbm, ⟨61, _⟩ => ⟨S2x4096, .f32⟩
  | .hbm, ⟨62, _⟩ => ⟨S2x4096, .f32⟩
  | .hbm, ⟨63, _⟩ => ⟨S2x4096, .f32⟩
  | .hbm, ⟨64, _⟩ => ⟨S_, .f32⟩
  | .hbm, ⟨65, _⟩ => ⟨S2x4096, .f32⟩
  | .hbm, ⟨66, _⟩ => ⟨S_, .f32⟩
  | .hbm, ⟨67, _⟩ => ⟨S2x4096, .f32⟩
  | .hbm, ⟨68, _⟩ => ⟨S2x4096, .f32⟩
  | .hbm, ⟨69, _⟩ => ⟨S2x4096x1, .f32⟩
  | .hbm, ⟨70, _⟩ => ⟨S2x4096x32000, .f32⟩
  | .hbm, ⟨71, _⟩ => ⟨S2x4096x32000, .f32⟩
  | .hbm, ⟨72, _⟩ => ⟨S2x4096x32000, .f32⟩
  | .hbm, ⟨73, _⟩ => ⟨S_, .f32⟩
  | .hbm, ⟨74, _⟩ => ⟨S2x4096, .f32⟩
  | .hbm, ⟨75, _⟩ => ⟨S2x4096x1, .f32⟩
  | .hbm, ⟨76, _⟩ => ⟨S2x4096x1, .f32⟩
  | .hbm, ⟨77, _⟩ => ⟨S2x4096x32000, .f32⟩
  | .hbm, ⟨78, _⟩ => ⟨S2x4096x32000, .f32⟩
  | .hbm, ⟨79, _⟩ => ⟨S2x4096x1, .i32⟩
  | .hbm, ⟨80, _⟩ => ⟨S_, .i32⟩
  | .hbm, ⟨81, _⟩ => ⟨S2x4096x1, .i32⟩
  | .hbm, ⟨82, _⟩ => ⟨S2x4096x1, .i1⟩
  | .hbm, ⟨83, _⟩ => ⟨S_, .i32⟩
  | .hbm, ⟨84, _⟩ => ⟨S2x4096x1, .i32⟩
  | .hbm, ⟨85, _⟩ => ⟨S2x4096x1, .i32⟩
  | .hbm, ⟨86, _⟩ => ⟨S2x4096x1, .i32⟩
  | .hbm, ⟨87, _⟩ => ⟨S2x4096x1x1, .i32⟩
  | .hbm, ⟨88, _⟩ => ⟨S1, .i32⟩
  | .hbm, ⟨89, _⟩ => ⟨S_, .i32⟩
  | .hbm, ⟨90, _⟩ => ⟨S2x4096x1x1, .i32⟩
  | .hbm, ⟨91, _⟩ => ⟨S2x4096x1x1, .i1⟩
  | .hbm, ⟨92, _⟩ => ⟨S1x1x1x1, .i32⟩
  | .hbm, ⟨93, _⟩ => ⟨S2x4096x1x1, .i32⟩
  | .hbm, ⟨94, _⟩ => ⟨S2x4096x1x1, .i1⟩
  | .hbm, ⟨95, _⟩ => ⟨S2x4096x1x1, .i1⟩
  | .hbm, ⟨96, _⟩ => ⟨S_, .i1⟩
  | .hbm, ⟨97, _⟩ => ⟨S2x4096x1, .i1⟩
  | .hbm, ⟨98, _⟩ => ⟨S2x4096x1, .f32⟩
  | .hbm, ⟨99, _⟩ => ⟨S_, .f32⟩
  | .hbm, ⟨100, _⟩ => ⟨S2x4096x1, .f32⟩
  | .hbm, ⟨101, _⟩ => ⟨S2x4096x1, .f32⟩
  | .hbm, ⟨102, _⟩ => ⟨S2x4096, .f32⟩
  | .hbm, ⟨103, _⟩ => ⟨S2x4096, .f32⟩
  | .hbm, ⟨104, _⟩ => ⟨S2x4096, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S2x4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_c_7 : Ref sig .tc := ⟨.hbm, 36, rfl⟩
abbrev main_v26 : Ref sig .tc := ⟨.hbm, 37, rfl⟩
abbrev main_v27 : Ref sig .tc := ⟨.hbm, 38, rfl⟩
abbrev main_c_8 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_10 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_11 : Ref sig .tc := ⟨.hbm, 55, rfl⟩
abbrev main_v41 : Ref sig .tc := ⟨.hbm, 56, rfl⟩
abbrev main_v42 : Ref sig .tc := ⟨.hbm, 57, rfl⟩
abbrev main_cst : Ref sig .tc := ⟨.hbm, 58, rfl⟩
abbrev main_cst_12 : Ref sig .tc := ⟨.hbm, 59, rfl⟩
abbrev main_call0_v0 : Ref sig .tc := ⟨.hbm, 60, rfl⟩
abbrev main_call0_v1 : Ref sig .tc := ⟨.hbm, 61, rfl⟩
abbrev main_v43 : Ref sig .tc := ⟨.hbm, 62, rfl⟩
abbrev main_v44 : Ref sig .tc := ⟨.hbm, 63, rfl⟩
abbrev main_call1_cst : Ref sig .tc := ⟨.hbm, 64, rfl⟩
abbrev main_call1_v0 : Ref sig .tc := ⟨.hbm, 65, rfl⟩
abbrev main_call1_cst_0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_cst_1 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_v45 : Ref sig .tc := ⟨.hbm, 78, rfl⟩
abbrev main_v46 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_cst : Ref sig .tc := ⟨.hbm, 99, rfl⟩
abbrev main_call2_v14 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_13 : Ref sig .tc := ⟨.hbm, 105, rfl⟩
abbrev main_v51 : Ref sig .tc := ⟨.hbm, 106, rfl⟩
abbrev main_cst_14 : Ref sig .tc := ⟨.hbm, 107, rfl⟩
abbrev main_v52 : Ref sig .tc := ⟨.hbm, 108, rfl⟩
abbrev main_v53 : Ref sig .tc := ⟨.hbm, 109, rfl⟩

abbrev nD : Nat := 1
abbrev τ : Topo := Topo.v7x

variable {F : FTy → Type} [FloatOps F]

class Facts₀ : Prop where
  bcast_S_S2x4096 : S_.BroadcastsInDim S2x4096 (![] : Fin 0 → Fin S2x4096.rank)
  bcast_S_S2x4094 : S_.BroadcastsInDim S2x4094 (![] : Fin 0 → Fin S2x4094.rank)
  slices_S2x4096_S2x4094_0_0 : S2x4096.Slices ![0, 0] S2x4094
  slices_S2x4096_S2x4094_0_1 : S2x4096.Slices ![0, 1] S2x4094
  slices_S2x4096_S2x4094_0_2 : S2x4096.Slices ![0, 2] S2x4094
  bcast_S_S1 : S_.BroadcastsInDim S1 (![] : Fin 0 → Fin S1.rank)
  bcast_S_S2x4095 : S_.BroadcastsInDim S2x4095 (![] : Fin 0 → Fin S2x4095.rank)
  slices_S2x4096_S2x4095_0_0 : S2x4096.Slices ![0, 0] S2x4095
  slices_S2x4096_S2x4095_0_1 : S2x4096.Slices ![0, 1] S2x4095
  reducesTo_S2x4096x32000_S2x4096_d2 : S2x4096x32000.ReducesTo [2] S2x4096
  h_S_ : 0 < S_.numel
  bcast_S2x4096_S2x4096x1_0_1 : S2x4096.BroadcastsInDim S2x4096x1 (![0, 1] : Fin 2 → Fin S2x4096x1.rank)
  bcast_S2x4096x1_S2x4096x32000_0_1_2 : S2x4096x1.BroadcastsInDim S2x4096x32000 (![0, 1, 2] : Fin 3 → Fin S2x4096x32000.rank)
  bcast_S_S2x4096x1 : S_.BroadcastsInDim S2x4096x1 (![] : Fin 0 → Fin S2x4096x1.rank)
  shapeCasts_S2x4096x1_S2x4096x1x1 : S2x4096x1.ShapeCasts S2x4096x1x1
  bcast_S_S2x4096x1x1 : S_.BroadcastsInDim S2x4096x1x1 (![] : Fin 0 → Fin S2x4096x1x1.rank)
  bcast_S1_S1x1x1x1_3 : S1.BroadcastsInDim S1x1x1x1 (![3] : Fin 1 → Fin S1x1x1x1.rank)
  bcast_S1x1x1x1_S2x4096x1x1_0_1_2_3 : S1x1x1x1.BroadcastsInDim S2x4096x1x1 (![0, 1, 2, 3] : Fin 4 → Fin S2x4096x1x1.rank)
  reducesTo_S2x4096x1x1_S2x4096x1_d3 : S2x4096x1x1.ReducesTo [3] S2x4096x1
  shapeCasts_S2x4096x1_S2x4096 : S2x4096x1.ShapeCasts S2x4096
  reducesTo_S2x4096_S_d0_1 : S2x4096.ReducesTo [0, 1] S_
  scatter_S2x4096_S1_S2x4094_01_n_1_0_wf : ScatterDims.WF S2x4096 S1 S2x4094 [0, 1] [] [1] 0
  scatter_S2x4096_S1_S2x4095_01_n_1_0_wf : ScatterDims.WF S2x4096 S1 S2x4095 [0, 1] [] [1] 0
  gather_S2x4096x32000_S2x4096x1x1_S2x4096x1_n_2_01_01_2_3_111_wf : GatherDims.WF S2x4096x32000 S2x4096x1x1 S2x4096x1 [] [2] [0, 1] [2] [0, 1] 3 ![1, 1, 1]

variable [Facts₀]

def scatter_S2x4096_S1_S2x4094_01_n_1_0 : ScatterDims S2x4096 S1 S2x4094 where
  updateWindowDims := [0, 1]
  insertedWindowDims := []
  scatterDimsToOperandDims := [1]
  indexVectorDim := 0
  wf := scatter_S2x4096_S1_S2x4094_01_n_1_0_wf
def scatter_S2x4096_S1_S2x4095_01_n_1_0 : ScatterDims S2x4096 S1 S2x4095 where
  updateWindowDims := [0, 1]
  insertedWindowDims := []
  scatterDimsToOperandDims := [1]
  indexVectorDim := 0
  wf := scatter_S2x4096_S1_S2x4095_01_n_1_0_wf
def gather_S2x4096x32000_S2x4096x1x1_S2x4096x1_n_2_01_01_2_3_111 : GatherDims S2x4096x32000 S2x4096x1x1 S2x4096x1 where
  offsetDims := []
  collapsedSliceDims := [2]
  operandBatchingDims := [0, 1]
  startIndicesBatchingDims := [0, 1]
  startIndexMap := [2]
  indexVectorDim := 3
  sliceSizes := ![1, 1, 1]
  wf := gather_S2x4096x32000_S2x4096x1x1_S2x4096x1_n_2_01_01_2_3_111_wf

class Facts : Prop extends Facts₀ where

variable [Facts]
-- ==== Proof.Positions.lean ====
/-
  Sequence positions by tile: the kernel walks each batch row's 4096 positions in 32 tiles of 128 rows, so row `r` of
  tile `t` is position `128 * t + r`.
-/
import Idealize.ShloMosaic.Lib.ValueIdx

noncomputable section

namespace Cert.Wnll

/-- Row `r` of tile `t` as a position of the sequence. -/
def seqPos (t : Fin 32) (r : Fin 128) : Fin 4096 :=
  ⟨128 * t.val + r.val, by have := t.isLt; have := r.isLt; omega⟩

theorem seqPos_val (t : Fin 32) (r : Fin 128) : (seqPos t r).val = 128 * t.val + r.val := rfl

end Cert.Wnll

end
-- ==== Proof.KernelBlocks.lean ====
/-
  The blocks the kernel's windows hold at a grid point.  The grid is 2 batch rows by 32 tiles; point `t` is batch row
  `t / 32`, tile `t % 32`.  At that point the logits window holds rows `128 * (t % 32) + r` (`r < 128`) of batch row
  `t / 32`, all 32000 columns; the label and weight windows hold the same 128 positions of their [2, 4096, 1] arrays;
  the output window is cell `t / 32` of the [2, 1, 1] result, whatever the tile.
-/
import proofs.«426176_j20177756356941_3_alg».proof.Proof.Gen.KernelIdeal.Frame
import proofs.«426176_j20177756356941_3_alg».proof.Proof.Positions
import Idealize.ShloMosaic.Lib.Pipeline.Value
import Idealize.ShloMosaic.Lib.ValueIdx

noncomputable section

namespace Cert.KernelIdeal.KGrid

open Idealize.ShloMosaic Idealize.ShloMosaic.TcCoe Idealize.SL.Sem Idealize.ShloMosaic.ValueIdx
open Idealize.ShloMosaic.Pipeline (Dat)
open Cert.KernelIdeal Cert.KernelIdeal.Gen Cert.Wnll

variable {F : FTy → Type} [FloatOps F]
variable (m : (ℓ : Loc nD τ sig) → Buf (Elt F) ℓ)

theorem N64 : cfg0.N = 64 := N_0

/-- The batch row of a grid point. -/
def rowOfPt (t : Fin cfg0.N) : Fin 2 :=
  ⟨t.val / 32, by have h : t.val < 64 := lt_of_lt_of_eq t.isLt N64; omega⟩

/-- The tile of a grid point. -/
def tileOfPt (t : Fin cfg0.N) : Fin 32 := ⟨t.val % 32, Nat.mod_lt _ (by norm_num)⟩

/-- The printed index maps, decided once over the 64 grid points: the three input windows sit at block
    `(t / 32, t % 32, 0)`, the output window at block `(t / 32, 0, 0)`. -/
theorem idx_facts : ∀ t : Fin cfg0.N,
    win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = t.val % 32 ∧ win0_1.index t (2 : Fin 3) = 0
    ∧ win0_2.index t (0 : Fin 3) = t.val / 32 ∧ win0_2.index t (1 : Fin 3) = t.val % 32 ∧ win0_2.index t (2 : Fin 3) = 0
    ∧ win0_3.index t (0 : Fin 3) = t.val / 32 ∧ win0_3.index t (1 : Fin 3) = 0 ∧ win0_3.index t (2 : Fin 3) = 0 :=
  (by decide +kernel : ∀ t : Fin grid0.N, _)

/-- The logits block at point `t`: row `r`, column `v` is the array at batch row `t / 32`, position
    `128 * (t % 32) + r`, column `v`. -/
theorem iblk0_apply (c : Dev nD) (t : Fin cfg0.N) (r : Fin 128) (v : Fin 32000) :
    (iblk m c 0 t : Vec F S1x128x32000 .f32) (ix3 0 r v)
      = V m c main_arg0 (ix3 (rowOfPt t) (seqPos (tileOfPt t) r) v) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = t.val / 32; omega
  | ⟨1, _⟩ => show win0_0.index t (1 : Fin 3) * 128 + 1 * r.val = 128 * (t.val % 32) + r.val; omega
  | ⟨2, _⟩ => show win0_0.index t (2 : Fin 3) * 32000 + 1 * v.val = v.val; omega

/-- The label block at point `t`: row `r` is the [2, 4096, 1] label array at batch row `t / 32`, position
    `128 * (t % 32) + r`. -/
theorem iblk1_apply (c : Dev nD) (t : Fin cfg0.N) (r : Fin 128) :
    (iblk m c 1 t : Vec F S1x128x1 .i32) (ix3 0 r 0)
      = V m c main_v45 (ix3 (rowOfPt t) (seqPos (tileOfPt t) r) 0) := by
  obtain ⟨-, -, -, e0, e1, e2, -⟩ := idx_facts t
  unfold iblk
  rw [View.read_apply]
  show V m c main_v45 _ = V m c main_v45 _
  congr 1
  funext a
  apply Fin.ext
  match a with
  | ⟨0, _⟩ => show win0_1.index t (0 : Fin 3) * 1 + 1 * 0 = t.val / 32; omega
  | ⟨1, _⟩ => show win0_1.index t (1 : Fin 3) * 128 + 1 * r.val = 128 * (t.val % 32) + r.val; omega
  | ⟨2, _⟩ => show win0_1.index t (2 : Fin 3) * 1 + 1 * 0 = 0; omega

/-- The weight block at point `t`: row `r` is the [2, 4096, 1] weight array at the same position. -/
theorem iblk2_apply (c : Dev nD) (t : Fin cfg0.N) (r : Fin 128) :
    (iblk m c 2 t : Vec F S1x128x1 .f32) (ix3 0 r 0)
      = V m c main_v46 (ix3 (rowOfPt t) (seqPos (tileOfPt t) r) 0) := by
  obtain ⟨-, -, -, -, -, -, e0, e1, e2, -⟩ := idx_facts t
  unfold iblk
  rw [View.read_apply]
  show V m c main_v46 _ = V m c main_v46 _
  congr 1
  funext a
  apply Fin.ext
  match a with
  | ⟨0, _⟩ => show win0_2.index t (0 : Fin 3) * 1 + 1 * 0 = t.val / 32; omega
  | ⟨1, _⟩ => show win0_2.index t (1 : Fin 3) * 128 + 1 * r.val = 128 * (t.val % 32) + r.val; omega
  | ⟨2, _⟩ => show win0_2.index t (2 : Fin 3) * 1 + 1 * 0 = 0; omega

end Cert.KernelIdeal.KGrid

end
-- ==== Proof.KernelDefs.lean ====
/-
  The kernel body's arithmetic for one block of 128 rows, as recurrences over the chunks of the row, stated on whole
  vectors over the body's own pure terms.  A block's 10 chunks are given as a family `chunk k`; walking them carries a
  column of running maxima (`colMax`), a column of running rescaled sums of exponentials (`colSum`) and a column of running
  picks of the label's logit (`colPick`); the block's contribution to the output cell is the earlier contents plus the
  sum over the rows of weight times `(log colSum + colMax) - colPick` (`blockOut`).
-/
import proofs.«426176_j20177756356941_3_alg».proof.Proof.Gen.KernelIdeal.Skeleton

noncomputable section

namespace Cert.KernelIdeal.Loss

open Idealize.ShloMosaic Cert.KernelIdeal Cert.KernelIdeal.Gen

variable {F : FTy → Type} [FloatOps F] [Cert.KernelIdeal.Facts]

/-- The column of running maxima after the first `k` chunks: minus infinity, then the larger of the column so far and each
    row's largest entry in the chunk. -/
def colMax (chunk : ℕ → Vec F S1x128x3200 .f32) : ℕ → FVec F S1x128x1 .f32
  | 0 => k0_pay8 (F := F)
  | k + 1 => k0_pay12 (k0_pay2 (chunk k) (colMax chunk k))

/-- The column of running sums of exponentials after the first `k` chunks, rescaled to the running maxima. -/
def colSum (chunk : ℕ → Vec F S1x128x3200 .f32) : ℕ → FVec F S1x128x1 .f32
  | 0 => k0_pay9 (F := F)
  | k + 1 => k0_pay3 (chunk k) (colMax chunk k) (colSum chunk k)

/-- The column of running picks after the first `k` chunks: each row's entries at the lane equal to its label, summed. -/
def colPick (chunk : ℕ → Vec F S1x128x3200 .f32) (x1 : Vec F S1x128x1 .i32) : ℕ → FVec F S1x128x1 .f32
  | 0 => k0_pay10 (F := F)
  | k + 1 =>
    if h : k < k0_t1_loop.trips then
      k0_pay11 (k0_pay4 (k0_pay6 x1) 0#32 1#32 ⟨k, h⟩ (chunk k) (colPick chunk x1 k))
    else colPick chunk x1 k

/-- What the body leaves in the output cell: the earlier contents plus the block's weighted losses summed over its rows. -/
def blockOut (chunk : ℕ → Vec F S1x128x3200 .f32) (x1 : Vec F S1x128x1 .i32) (x2 : Vec F S1x128x1 .f32)
    (prev : Vec F S1x1x1 .f32) : FVec F S1x1x1 .f32 :=
  k0_pay1 (k0_pay7 x2) (k0_pay13 (colSum chunk 10)) (colMax chunk 10) (colPick chunk x1 10) prev

end Cert.KernelIdeal.Loss

end
-- ==== Proof.KernelPieces.lean ====
/-
  The kernel body's value for one block of 128 rows, read off the pieces its stores leave.  The body walks the block's
  32000 lanes in ten chunks of 3200 lanes; trip `k` of its loop loads chunk `k` and the three column buffers and stores
  each column back whole: the larger of the running maxima and the chunk's row maxima, the running sums of exponentials
  rescaled to the new maxima, and the running picks of the label's lane.  A store through the whole-shape rectangle
  overwrites everything, so after `k` trips the three buffers read the recurrences `colMax`, `colSum`, `colPick` at `k`
  (by induction on the trips); the body's last store then leaves in the output cell `blockOut` of the ten chunks, over
  zero on the first tile of a batch row and over the cell's earlier contents on the later ones.
-/
import proofs.«426176_j20177756356941_3_alg».proof.Proof.Gen.KernelIdeal.Frame
import proofs.«426176_j20177756356941_3_alg».proof.Proof.KernelDefs
import Idealize.ShloMosaic.Lib.ValueIdx
import Idealize.ShloMosaic.Lib.Pipeline.Value

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The loop makes exactly ten trips. -/
theorem trips_eq : k0_t1_loop.trips = 10 := by decide

/-- Chunk `k` of a block of rows: its lanes `3200 * k` to `3200 * k + 3199`, read through the rectangle the body's
    trip `k` loads the block through; past the last trip, a constant. -/
def chunkOf (x0 : Vec F S1x128x32000 .f32) : ℕ → Vec F S1x128x3200 .f32 := fun k =>
  if h : k < k0_t1_loop.trips then
    View.ld x0 (Rect.unit (s := S1x128x32000) (k0_off1 ⟨k, h⟩) S1x128x3200.size (k0_off1_inb ⟨k, h⟩))
  else fun _ => Scalar.ofBits .f32 0x00000000#32

/-- Inside the loop's range a chunk is the load. -/
theorem chunkOf_of_lt (x0 : Vec F S1x128x32000 .f32) (k : Fin k0_t1_loop.trips) :
    chunkOf x0 k.val = View.ld x0 (Rect.unit (s := S1x128x32000) (k0_off1 k) S1x128x3200.size (k0_off1_inb k)) := by
  unfold chunkOf; exact dif_pos k.isLt

/-- Chunk `k` at row `r` and lane `j` is the block at row `r` and lane `3200 * k + j`. -/
theorem chunkOf_apply (x0 : Vec F S1x128x32000 .f32) (k : ℕ) (hk : k < 10) (r : Fin 128) (j : Fin 3200) (h : 3200 * k + j.val < 32000) :
    chunkOf x0 k (ValueIdx.ix3 0 r j) = x0 (ValueIdx.ix3 0 r ⟨3200 * k + j.val, h⟩) := by
  have hk' : k < k0_t1_loop.trips := trips_eq ▸ hk
  rw [show chunkOf x0 k = _ from chunkOf_of_lt x0 ⟨k, hk'⟩]
  show x0 ((Rect.unit (s := S1x128x32000) (k0_off1 ⟨k, hk'⟩) S1x128x3200.size (k0_off1_inb ⟨k, hk'⟩)).idx (ValueIdx.ix3 0 r j)) = _
  congr 1
  funext a
  apply Fin.ext
  rw [LoadRect.idx_apply]
  have e := k0_off1_eq ⟨k, hk'⟩
  match a with
  | ⟨0, _⟩ =>
    have e0 : k0_off1 ⟨k, hk'⟩ (0 : Fin 3) = 0 := congrFun e _
    show k0_off1 ⟨k, hk'⟩ (0 : Fin 3) + 1 * (0 : ℕ) = 0
    omega
  | ⟨1, _⟩ =>
    have e1 : k0_off1 ⟨k, hk'⟩ (1 : Fin 3) = 0 := congrFun e _
    show k0_off1 ⟨k, hk'⟩ (1 : Fin 3) + 1 * r.val = r.val
    omega
  | ⟨2, _⟩ =>
    have e2 : k0_off1 ⟨k, hk'⟩ (2 : Fin 3) = 3200 * k := congrFun e _
    show k0_off1 ⟨k, hk'⟩ (2 : Fin 3) + 1 * j.val = 3200 * k + j.val
    omega

/-! ## Whole-shape rectangles -/

/-- The three zero offsets are the zero function. -/
theorem hz3 : (![0, 0, 0] : Fin 3 → ℕ) = fun _ => 0 := by
  funext a; fin_cases a <;> rfl

section Whole

variable {S : Shape} {e : EltTy}

/-- A load through the whole-shape rectangle reads the contents. -/
theorem readAt_whole (v : View sig .tc .vmem S e) {off : Fin S.rank → ℕ} (hz : off = fun _ => 0)
    (inb : ∀ a, off a + S.size a ≤ S.size a) (f : v.ty.Contents (Elt F)) :
    v.readAt (Elt F) (Rect.unit off S.size inb).toLoadRect f = v.read (Elt F) f :=
  (View.readAt_eq_ld v f (Rect.unit off S.size inb)).trans (View.ld_unit_zero hz inb _)

/-- A load through the whole-shape rectangle of a whole buffer that reads `X` is `X`. -/
theorem readAt_whole_unread (m : Memref sig .tc .vmem S e) (h : m.IsWhole) {off : Fin S.rank → ℕ} (hz : off = fun _ => 0)
    (inb : ∀ a, off a + S.size a ≤ S.size a) (X : S.Idx → Elt F e) :
    m.view.readAt (Elt F) (Rect.unit off S.size inb).toLoadRect (h.unread X) = X :=
  (readAt_whole m.view hz inb _).trans (h.read_unread X)

/-- A store through the whole-shape rectangle, last, leaves its payload whatever was stored before. -/
theorem read_writes_cons_whole (v : View sig .tc .vmem S e) (f : v.ty.Contents (Elt F)) {off : Fin S.rank → ℕ}
    (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

end Whole

/-! ## The loop -/

section Loop

variable (𝒱 : Variants) (c : Dev nD) (bd : Option 𝒱.V) (i : grid0.Coords) (arg2 : Memref sig .tc .vmem S1x128x32000 .f32) (harg2 : arg2.IsWhole) (arg3 : Memref sig .tc .vmem S1x128x1 .i32) (harg3 : arg3.IsWhole) (arg4 : Memref sig .tc .vmem S1x128x1 .f32) (harg4 : arg4.IsWhole) (arg5 : Memref sig .tc .vmem S1x1x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x128x1 .f32) (harg8 : arg8.IsWhole)

/-- ONE TRIP, opened once: into each of the three column buffers trip `k` stores, through the whole-shape rectangle,
    one payload of chunk `k` of the block and of what it finds in the column buffers. -/
theorem tripL_eq (v3 : Vec F S1x128x1 .i32) (X2 : BufTy.Contents (Elt F) arg2.view.ty) (k : Fin k0_t1_loop.trips)
    (f6 : BufTy.Contents (Elt F) arg6.view.ty) (f7 : BufTy.Contents (Elt F) arg7.view.ty) (f8 : BufTy.Contents (Elt F) arg8.view.ty) :
    tripL_k0_t1 (F := F) 𝒱 c bd i arg2 harg2 arg3 harg3 arg4 harg4 arg5 harg5 arg6 harg6 arg7 harg7 arg8 harg8 v3 X2 k f6 f7 f8
      = ([(⟨Rect.unit ![0, 0, 0] S1x128x1.size inb_S1x128x1_S1x128x1_0_0_0,
            k0_pay12 (k0_pay2 (arg2.view.readAt (Elt F) (Rect.unit (s := S1x128x32000) (k0_off1 k) S1x128x3200.size (k0_off1_inb k)).toLoadRect X2)
              (arg6.view.readAt (Elt F) (Rect.unit ![0, 0, 0] S1x128x1.size inb_S1x128x1_S1x128x1_0_0_0).toLoadRect f6))⟩ : View.Piece (Elt F) S1x128x1 .f32)],
         [(⟨Rect.unit ![0, 0, 0] S1x128x1.size inb_S1x128x1_S1x128x1_0_0_0,
            k0_pay3 (arg2.view.readAt (Elt F) (Rect.unit (s := S1x128x32000) (k0_off1 k) S1x128x3200.size (k0_off1_inb k)).toLoadRect X2)
              (arg6.view.readAt (Elt F) (Rect.unit ![0, 0, 0] S1x128x1.size inb_S1x128x1_S1x128x1_0_0_0).toLoadRect f6)
              (arg7.view.readAt (Elt F) (Rect.unit ![0, 0, 0] S1x128x1.size inb_S1x128x1_S1x128x1_0_0_0).toLoadRect f7)⟩ : View.Piece (Elt F) S1x128x1 .f32)],
         [(⟨Rect.unit ![0, 0, 0] S1x128x1.size inb_S1x128x1_S1x128x1_0_0_0,
            k0_pay11 (k0_pay4 (k0_pay6 v3) 0#32 1#32 k (arg2.view.readAt (Elt F) (Rect.unit (s := S1x128x32000) (k0_off1 k) S1x128x3200.size (k0_off1_inb k)).toLoadRect X2)
              (arg8.view.readAt (Elt F) (Rect.unit ![0, 0, 0] S1x128x1.size inb_S1x128x1_S1x128x1_0_0_0).toLoadRect f8))⟩ : View.Piece (Elt F) S1x128x1 .f32)]) := by
  unfold tripL_k0_t1 trip_k0_t1
  rfl

end Loop

section LoopInv

variable (𝒱 : Variants) (c : Dev nD) (bd : Option 𝒱.V) (i : grid0.Coords) (arg2 : Memref sig .tc .vmem S1x128x32000 .f32) (harg2 : arg2.IsWhole) (arg3 : Memref sig .tc .vmem S1x128x1 .i32) (harg3 : arg3.IsWhole) (arg4 : Memref sig .tc .vmem S1x128x1 .f32) (harg4 : arg4.IsWhole) (arg5 : Memref sig .tc .vmem S1x1x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x128x1 .f32) (harg8 : arg8.IsWhole)
  (v3 : Vec F S1x128x1 .i32) (X2 : BufTy.Contents (Elt F) arg2.view.ty)
  (G6 : BufTy.Contents (Elt F) arg6.view.ty) (G7 : BufTy.Contents (Elt F) arg7.view.ty) (G8 : BufTy.Contents (Elt F) arg8.view.ty)

/-- What the three column buffers read after the first `k` trips, when the block reads `x0`, the labels read `x1`, and
    the loop finds the columns at minus infinity, zero and zero: the running maxima, the running rescaled sums of
    exponentials and the running picks. By induction on the trips; each trip's one store per buffer covers it. -/
theorem loop_contents (x0 : Vec F S1x128x32000 .f32) (x1 : Vec F S1x128x1 .i32) (hv3 : v3 = x1)
    (hX2 : arg2.view.read (Elt F) X2 = x0)
    (h6 : arg6.view.read (Elt F) G6 = k0_pay8 (F := F)) (h7 : arg7.view.read (Elt F) G7 = k0_pay9 (F := F))
    (h8 : arg8.view.read (Elt F) G8 = k0_pay10 (F := F)) :
    ∀ k : ℕ, k ≤ k0_t1_loop.trips →
      arg6.view.read (Elt F) (arg6.view.writes (Elt F) G6 (pb_k0_t1 (F := F) 𝒱 c bd i arg2 harg2 arg3 harg3 arg4 harg4 arg5 harg5 arg6 harg6 arg7 harg7 arg8 harg8 v3 X2 G6 G7 G8 k).1) = colMax (chunkOf x0) k
      ∧ arg7.view.read (Elt F) (arg7.view.writes (Elt F) G7 (pb_k0_t1 (F := F) 𝒱 c bd i arg2 harg2 arg3 harg3 arg4 harg4 arg5 harg5 arg6 harg6 arg7 harg7 arg8 harg8 v3 X2 G6 G7 G8 k).2.1) = colSum (chunkOf x0) k
      ∧ arg8.view.read (Elt F) (arg8.view.writes (Elt F) G8 (pb_k0_t1 (F := F) 𝒱 c bd i arg2 harg2 arg3 harg3 arg4 harg4 arg5 harg5 arg6 harg6 arg7 harg7 arg8 harg8 v3 X2 G6 G7 G8 k).2.2) = colPick (chunkOf x0) x1 k := by
  intro k
  induction k with
  | zero => intro _; exact ⟨h6, h7, h8⟩
  | succ k ih =>
    intro hk
    have hk' : k < k0_t1_loop.trips := hk
    obtain ⟨i6, i7, i8⟩ := ih (Nat.le_of_lt hk')
    have hch : arg2.view.readAt (Elt F) (Rect.unit (s := S1x128x32000) (k0_off1 ⟨k, hk'⟩) S1x128x3200.size (k0_off1_inb ⟨k, hk'⟩)).toLoadRect X2 = chunkOf x0 k := by
      rw [View.readAt_eq_ld, hX2]; exact (chunkOf_of_lt x0 ⟨k, hk'⟩).symm
    have r6 := (readAt_whole (F := F) arg6.view hz3 inb_S1x128x1_S1x128x1_0_0_0 _).trans i6
    have r7 := (readAt_whole (F := F) arg7.view hz3 inb_S1x128x1_S1x128x1_0_0_0 _).trans i7
    have r8 := (readAt_whole (F := F) arg8.view hz3 inb_S1x128x1_S1x128x1_0_0_0 _).trans i8
    have hs := pb_k0_t1_succ (F := F) 𝒱 c bd i arg2 harg2 arg3 harg3 arg4 harg4 arg5 harg5 arg6 harg6 arg7 harg7 arg8 harg8 v3 X2 G6 G7 G8 ⟨k, hk'⟩
    rw [tripL_eq] at hs
    rw [show k + 1 = (⟨k, hk'⟩ : Fin k0_t1_loop.trips).val + 1 from rfl, hs]
    refine ⟨?_, ?_, ?_⟩
    · refine (read_writes_cons_whole (F := F) arg6.view G6 hz3 inb_S1x128x1_S1x128x1_0_0_0 _ _).trans ?_
      rw [hch, r6]; rfl
    · refine (read_writes_cons_whole (F := F) arg7.view G7 hz3 inb_S1x128x1_S1x128x1_0_0_0 _ _).trans ?_
      rw [hch, r6, r7]; rfl
    · refine (read_writes_cons_whole (F := F) arg8.view G8 hz3 inb_S1x128x1_S1x128x1_0_0_0 _ _).trans ?_
      rw [hch, r8, hv3]
      show _ = colPick (chunkOf x0) x1 (k + 1)
      rw [colPick, dif_pos hk']

end LoopInv

/-! ## The whole body -/

section Out

variable (c : Dev nD) (i : grid0.Coords) (arg2 : Memref sig .tc .vmem S1x128x32000 .f32) (harg2 : arg2.IsWhole) (arg3 : Memref sig .tc .vmem S1x128x1 .i32) (harg3 : arg3.IsWhole) (arg4 : Memref sig .tc .vmem S1x128x1 .f32) (harg4 : arg4.IsWhole) (arg5 : Memref sig .tc .vmem S1x1x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x128x1 .f32) (harg8 : arg8.IsWhole)

/-- What the three column buffers read after the loop in a run of the body on a block reading `x0` with labels reading
    `x1`: before the loop each was stored whole (minus infinity, zero, zero), so the loop finds them there and leaves the
    columns after all ten chunks. -/
theorem run_columns (x0 : Vec F S1x128x32000 .f32) (x1 : Vec F S1x128x1 .i32) :
    arg6.view.readAt (Elt F) (Rect.unit ![0, 0, 0] S1x128x1.size inb_S1x128x1_S1x128x1_0_0_0).toLoadRect
        (arg6.view.writes (Elt F) arg6.view.junk ((pb_k0_t1 (F := F) Variants.none c none i arg2 harg2 arg3 harg3 arg4 harg4 arg5 harg5 arg6 harg6 arg7 harg7 arg8 harg8 (arg3.view.readAt (Elt F) (Rect.unit ![0, 0, 0] S1x128x1.size inb_S1x128x1_S1x128x1_0_0_0).toLoadRect (harg3.unread x1)) (harg2.unread x0) (arg6.view.writes (Elt F) arg6.view.junk [(⟨Rect.unit ![0, 0, 0] S1x128x1.size inb_S1x128x1_S1x128x1_0_0_0, k0_pay8 (F := F)⟩ : View.Piece (Elt F) S1x128x1 .f32)]) (arg7.view.writes (Elt F) arg7.view.junk [(⟨Rect.unit ![0, 0, 0] S1x128x1.size inb_S1x128x1_S1x128x1_0_0_0, k0_pay9 (F := F)⟩ : View.Piece (Elt F) S1x128x1 .f32)]) (arg8.view.writes (Elt F) arg8.view.junk [(⟨Rect.unit ![0, 0, 0] S1x128x1.size inb_S1x128x1_S1x128x1_0_0_0, k0_pay10 (F := F)⟩ : View.Piece (Elt F) S1x128x1 .f32)]) k0_t1_loop.trips).1 ++ [(⟨Rect.unit ![0, 0, 0] S1x128x1.size inb_S1x128x1_S1x128x1_0_0_0, k0_pay8 (F := F)⟩ : View.Piece (Elt F) S1x128x1 .f32)])) = colMax (chunkOf x0) 10
    ∧ arg7.view.readAt (Elt F) (Rect.unit ![0, 0, 0] S1x128x1.size inb_S1x128x1_S1x128x1_0_0_0).toLoadRect
        (arg7.view.writes (Elt F) arg7.view.junk ((pb_k0_t1 (F := F) Variants.none c none i arg2 harg2 arg3 harg3 arg4 harg4 arg5 harg5 arg6 harg6 arg7 harg7 arg8 harg8 (arg3.view.readAt (Elt F) (Rect.unit ![0, 0, 0] S1x128x1.size inb_S1x128x1_S1x128x1_0_0_0).toLoadRect (harg3.unread x1)) (harg2.unread x0) (arg6.view.writes (Elt F) arg6.view.junk [(⟨Rect.unit ![0, 0, 0] S1x128x1.size inb_S1x128x1_S1x128x1_0_0_0, k0_pay8 (F := F)⟩ : View.Piece (Elt F) S1x128x1 .f32)]) (arg7.view.writes (Elt F) arg7.view.junk [(⟨Rect.unit ![0, 0, 0] S1x128x1.size inb_S1x128x1_S1x128x1_0_0_0, k0_pay9 (F := F)⟩ : View.Piece (Elt F) S1x128x1 .f32)]) (arg8.view.writes (Elt F) arg8.view.junk [(⟨Rect.unit ![0, 0, 0] S1x128x1.size inb_S1x128x1_S1x128x1_0_0_0, k0_pay10 (F := F)⟩ : View.Piece (Elt F) S1x128x1 .f32)]) k0_t1_loop.trips).2.1 ++ [(⟨Rect.unit ![0, 0, 0] S1x128x1.size inb_S1x128x1_S1x128x1_0_0_0, k0_pay9 (F := F)⟩ : View.Piece (Elt F) S1x128x1 .f32)])) = colSum (chunkOf x0) 10
    ∧ arg8.view.readAt (Elt F) (Rect.unit ![0, 0, 0] S1x128x1.size inb_S1x128x1_S1x128x1_0_0_0).toLoadRect
        (arg8.view.writes (Elt F) arg8.view.junk ((pb_k0_t1 (F := F) Variants.none c none i arg2 harg2 arg3 harg3 arg4 harg4 arg5 harg5 arg6 harg6 arg7 harg7 arg8 harg8 (arg3.view.readAt (Elt F) (Rect.unit ![0, 0, 0] S1x128x1.size inb_S1x128x1_S1x128x1_0_0_0).toLoadRect (harg3.unread x1)) (harg2.unread x0) (arg6.view.writes (Elt F) arg6.view.junk [(⟨Rect.unit ![0, 0, 0] S1x128x1.size inb_S1x128x1_S1x128x1_0_0_0, k0_pay8 (F := F)⟩ : View.Piece (Elt F) S1x128x1 .f32)]) (arg7.view.writes (Elt F) arg7.view.junk [(⟨Rect.unit ![0, 0, 0] S1x128x1.size inb_S1x128x1_S1x128x1_0_0_0, k0_pay9 (F := F)⟩ : View.Piece (Elt F) S1x128x1 .f32)]) (arg8.view.writes (Elt F) arg8.view.junk [(⟨Rect.unit ![0, 0, 0] S1x128x1.size inb_S1x128x1_S1x128x1_0_0_0, k0_pay10 (F := F)⟩ : View.Piece (Elt F) S1x128x1 .f32)]) k0_t1_loop.trips).2.2 ++ [(⟨Rect.unit ![0, 0, 0] S1x128x1.size inb_S1x128x1_S1x128x1_0_0_0, k0_pay10 (F := F)⟩ : View.Piece (Elt F) S1x128x1 .f32)])) = colPick (chunkOf x0) x1 10 := by
  have H := loop_contents (F := F) Variants.none c none i arg2 harg2 arg3 harg3 arg4 harg4 arg5 harg5 arg6 harg6 arg7 harg7 arg8 harg8 (arg3.view.readAt (Elt F) (Rect.unit ![0, 0, 0] S1x128x1.size inb_S1x128x1_S1x128x1_0_0_0).toLoadRect (harg3.unread x1)) (harg2.unread x0) (arg6.view.writes (Elt F) arg6.view.junk [(⟨Rect.unit ![0, 0, 0] S1x128x1.size inb_S1x128x1_S1x128x1_0_0_0, k0_pay8 (F := F)⟩ : View.Piece (Elt F) S1x128x1 .f32)]) (arg7.view.writes (Elt F) arg7.view.junk [(⟨Rect.unit ![0, 0, 0] S1x128x1.size inb_S1x128x1_S1x128x1_0_0_0, k0_pay9 (F := F)⟩ : View.Piece (Elt F) S1x128x1 .f32)]) (arg8.view.writes (Elt F) arg8.view.junk [(⟨Rect.unit ![0, 0, 0] S1x128x1.size inb_S1x128x1_S1x128x1_0_0_0, k0_pay10 (F := F)⟩ : View.Piece (Elt F) S1x128x1 .f32)]) x0 x1
    (readAt_whole_unread arg3 harg3 hz3 inb_S1x128x1_S1x128x1_0_0_0 x1) (harg2.read_unread x0)
    (read_writes_cons_whole arg6.view arg6.view.junk hz3 inb_S1x128x1_S1x128x1_0_0_0 (k0_pay8 (F := F)) [])
    (read_writes_cons_whole arg7.view arg7.view.junk hz3 inb_S1x128x1_S1x128x1_0_0_0 (k0_pay9 (F := F)) [])
    (read_writes_cons_whole arg8.view arg8.view.junk hz3 inb_S1x128x1_S1x128x1_0_0_0 (k0_pay10 (F := F)) [])
    k0_t1_loop.trips (Nat.le_refl _)
  obtain ⟨H6, H7, H8⟩ := H
  refine ⟨?_, ?_, ?_⟩
  · rw [View.writes_append]
    exact ((readAt_whole (F := F) arg6.view hz3 inb_S1x128x1_S1x128x1_0_0_0 _).trans H6).trans (congrArg (colMax (chunkOf x0)) trips_eq)
  · rw [View.writes_append]
    exact ((readAt_whole (F := F) arg7.view hz3 inb_S1x128x1_S1x128x1_0_0_0 _).trans H7).trans (congrArg (colSum (chunkOf x0)) trips_eq)
  · rw [View.writes_append]
    exact ((readAt_whole (F := F) arg8.view hz3 inb_S1x128x1_S1x128x1_0_0_0 _).trans H8).trans (congrArg (colPick (chunkOf x0) x1) trips_eq)

/-- The last store's payload is a function of its five operands. -/
theorem pay1_congr {a a' b b' : FVec F S1x128x1 .f32} {d d' g g' : Vec F S1x128x1 .f32} {p p' : Vec F S1x1x1 .f32}
    (h1 : a = a') (h2 : b = b') (h3 : d = d') (h4 : g = g') (h5 : p = p') :
    k0_pay1 a b d g p = k0_pay1 a' b' d' g' p' := by rw [h1, h2, h3, h4, h5]

/-- On the first tile of a batch row the body zeroes the output cell, then leaves in it zero plus the block's weighted
    losses summed over its rows. -/
theorem out0_A_3_eq (hc0 : cond0_0 i) (x0 : Vec F S1x128x32000 .f32) (x1 : Vec F S1x128x1 .i32) (x2 : Vec F S1x128x1 .f32) :
    out0_A_3 c i arg2 harg2 arg3 harg3 arg4 harg4 arg5 harg5 arg6 harg6 arg7 harg7 arg8 harg8 hc0 x0 x1 x2 = blockOut (chunkOf x0) x1 x2 (k0_pay5 (F := F)) := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_run_names
  rw [View.canon_cons_unit_zero (S := S1x1x1) hz3]
  obtain ⟨c6, c7, c8⟩ := run_columns (F := F) c i arg2 harg2 arg3 harg3 arg4 harg4 arg5 harg5 arg6 harg6 arg7 harg7 arg8 harg8 x0 x1
  unfold blockOut
  refine pay1_congr ?_ ?_ ?_ ?_ ?_
  · exact congrArg k0_pay7 (readAt_whole_unread arg4 harg4 hz3 inb_S1x128x1_S1x128x1_0_0_0 x2)
  · exact congrArg k0_pay13 c7
  · exact c6
  · exact c8
  · exact View.readCov_unit_zero (Val := Elt F) arg5.view hz3 inb_S1x1x1_S1x1x1_0_0_0 (k0_pay5 (F := F))

/-- On every later tile of a batch row the body leaves in the output cell what it held plus the block's weighted losses
    summed over its rows. -/
theorem out0_B_3_eq (hc0 : ¬cond0_0 i) (x0 : Vec F S1x128x32000 .f32) (x1 : Vec F S1x128x1 .i32) (x2 : Vec F S1x128x1 .f32)
    (xo3 : Vec F S1x1x1 .f32) :
    out0_B_3 c i arg2 harg2 arg3 harg3 arg4 harg4 arg5 harg5 arg6 harg6 arg7 harg7 arg8 harg8 hc0 x0 x1 x2 xo3 = blockOut (chunkOf x0) x1 x2 xo3 := by
  unfold out0_B_3
  rw [View.read_writes_eq_canon _ _ _ (cover0_B_3 c i arg2 harg2 arg3 harg3 arg4 harg4 arg5 harg5 arg6 harg6 arg7 harg7 arg8 harg8 hc0 x0 x1 x2 xo3)]
  unfold kernelRun0_B
  dsimp only
  sl_unfold_run_names
  rw [View.canon_cons_unit_zero (S := S1x1x1) hz3]
  obtain ⟨c6, c7, c8⟩ := run_columns (F := F) c i arg2 harg2 arg3 harg3 arg4 harg4 arg5 harg5 arg6 harg6 arg7 harg7 arg8 harg8 x0 x1
  unfold blockOut
  refine pay1_congr ?_ ?_ ?_ ?_ ?_
  · exact congrArg k0_pay7 (readAt_whole_unread arg4 harg4 hz3 inb_S1x128x1_S1x128x1_0_0_0 x2)
  · exact congrArg k0_pay13 c7
  · exact c6
  · exact c8
  · exact readAt_whole_unread arg5 harg5 hz3 inb_S1x1x1_S1x1x1_0_0_0 xo3

end Out

end Cert.KernelIdeal.Loss

end
-- ==== Proof.Spec.lean ====
/-
  The loss both programs compute, as mathematics over the extended reals, with no program in sight.

  One row of logits is a family of 32000 extended reals cut into 10 chunks of 3200.  The kernel walks the chunks
  once, carrying a running maximum, a running sum of exponentials rescaled to that maximum, and a running pick of
  the label's raw logit (`runMax`, `runSum`, `runPick`); its loss for the row is
  `(log runSum + runMax) - runPick` (`lossOnline`).  The reference takes the row's maximum, the sum of the shifted
  exponentials and the shifted logit at the label in one pass each; its loss is
  `-((x_label - M) - log (0 + sum exp (x - M)))` (`lossDirect`).  The whole result is the weighted mean
  `(0 + sum w * loss) / (0 + sum w)` over the 2 x 4096 positions (`G`).
-/
import Idealize.ShloMosaic.PureOps.Ideal
import Idealize.ShloMosaic.Lib.ValueIdx

noncomputable section

open scoped BigOperators

namespace Cert.Wnll

open Idealize.ShloMosaic Idealize.ShloMosaic.ValueIdx

/-! ## One row, chunk by chunk -/

section Online

variable {ι : Type} [Fintype ι]

/-- The largest entry of a finite family, starting from minus infinity. -/
def famMax (c : ι → EReal) : EReal := (Finset.univ : Finset ι).fold max ⊥ c

/-- The running maximum after the first `k` chunks. -/
def runMax (c : ℕ → ι → EReal) : ℕ → EReal
  | 0 => ⊥
  | k + 1 => max (runMax c k) (famMax (c k))

/-- The running sum of exponentials after the first `k` chunks, each term shifted by the running maximum: the old sum
    is rescaled by `exp (old maximum - new maximum)` and the new chunk's shifted exponentials are added. -/
def runSum (c : ℕ → ι → EReal) : ℕ → EReal
  | 0 => 0
  | k + 1 => runSum c k * Ideal.exp (runMax c k - runMax c (k + 1)) + ∑ j, Ideal.exp (c k j - runMax c (k + 1))

/-- The running pick after the first `k` chunks: the sum of the entries at the positions marked `hit`. -/
def runPick (c : ℕ → ι → EReal) (hit : ℕ → ι → Prop) [∀ k j, Decidable (hit k j)] : ℕ → EReal
  | 0 => 0
  | k + 1 => runPick c hit k + ∑ j, if hit k j then c k j else 0

/-- The row's loss as the chunked walk computes it after `n` chunks. -/
def lossOnline (c : ℕ → ι → EReal) (hit : ℕ → ι → Prop) [∀ k j, Decidable (hit k j)] (n : ℕ) : EReal :=
  (Ideal.log (runSum c n) + runMax c n) - runPick c hit n

end Online

/-! ## One row, directly -/

/-- The row's loss in one pass: minus the shifted logit at the label less the log of the sum of shifted exponentials. -/
def lossDirect {κ : Type} [Fintype κ] (r : κ → EReal) (l : κ) : EReal :=
  -((r l - max ⊥ (famMax r)) - Ideal.log (0 + ∑ v, Ideal.exp (r v - max ⊥ (famMax r))))

/-! ## The arrays -/

/-- Chunk `k`, lane `j` of a row of 32000: entry `3200 * k + j` (zero past the row's end, which no chunk below 10 reaches). -/
def chunkAt (row : Fin 32000 → EReal) (k : ℕ) (j : Fin 3200) : EReal :=
  if h : 3200 * k + j.val < 32000 then row ⟨3200 * k + j.val, h⟩ else 0

/-- Chunk `k`, lane `j` is the label's position. -/
def hitAt (lab : ℕ) (k : ℕ) (j : Fin 3200) : Prop := 3200 * k + j.val = lab

instance (lab k : ℕ) (j : Fin 3200) : Decidable (hitAt lab k j) := by unfold hitAt; infer_instance

/-- Row `(b, s)` of the logits. -/
def rowOf (X : (⟨3, ![2, 4096, 32000]⟩ : Shape).Idx → EReal) (b : Fin 2) (s : Fin 4096) : Fin 32000 → EReal :=
  fun v => X (ix3 b s v)

/-- The label word at `(b, s)` as a position of the row (reduced modulo the row's length, which changes nothing for a
    label in range). -/
def labOf (Lb : (⟨2, ![2, 4096]⟩ : Shape).Idx → BitVec 32) (b : Fin 2) (s : Fin 4096) : Fin 32000 :=
  ⟨(Lb (ix2 b s)).toNat % 32000, Nat.mod_lt _ (by norm_num)⟩

/-- The loss at position `i = (b, s)`. -/
def nllAt (X : (⟨3, ![2, 4096, 32000]⟩ : Shape).Idx → EReal) (Lb : (⟨2, ![2, 4096]⟩ : Shape).Idx → BitVec 32)
    (i : (⟨2, ![2, 4096]⟩ : Shape).Idx) : EReal :=
  lossDirect (rowOf X (i 0) (i 1)) (labOf Lb (i 0) (i 1))

/-- The weighted mean loss: what both programs return. -/
def G (X : (⟨3, ![2, 4096, 32000]⟩ : Shape).Idx → EReal) (Lb : (⟨2, ![2, 4096]⟩ : Shape).Idx → BitVec 32)
    (W : (⟨2, ![2, 4096]⟩ : Shape).Idx → EReal) : EReal :=
  Ideal.div (0 + ∑ i : (⟨2, ![2, 4096]⟩ : Shape).Idx, W i * nllAt X Lb i) (0 + ∑ i : (⟨2, ![2, 4096]⟩ : Shape).Idx, W i)

end Cert.Wnll

end
-- ==== Proof.KernelIndex.lean ====
/-
  The kernel body's pure terms read at one index, at the ideal values (a float is an extended real and every operation
  is the textbook one).  First each term by itself: the constants are `0` and minus infinity, a cast of a shape to itself
  changes nothing, the running maximum's step is `max` of the old entry and the chunk's largest lane, the running sum's
  step rescales the old sum and adds the chunk's shifted exponentials, the running pick's step adds the lanes whose
  position equals the label, and the output cell's step adds the weighted losses of the 128 rows.  Then, by induction on
  the number of chunks walked, the three columns hold at row `r` the running maximum, sum and pick of row `r` of the
  logits; and last the block's contribution to the output cell is the earlier contents plus the weighted sum of the
  rows' chunked losses.
-/
import proofs.«426176_j20177756356941_3_alg».proof.Proof.Spec
import proofs.«426176_j20177756356941_3_alg».proof.Proof.KernelDefs
import Idealize.ShloMosaic.Lib.ValueIdx
import Idealize.ShloMosaic.PureOps.Ideal.Laws
import Idealize.ShloMosaic.Lib.Pipeline.Value
import Idealize.ShloMosaic.Lib.ValueLayout

noncomputable section

open scoped BigOperators

namespace Cert.KernelIdeal.Loss

open Idealize.ShloMosaic Idealize.ShloMosaic.ValueIdx Cert.KernelIdeal Cert.KernelIdeal.Gen

variable [Cert.KernelIdeal.Facts]

/-- The loop runs ten trips. -/
theorem loop_trips_ten : k0_t1_loop.trips = 10 := by decide

/-- The word `0xFF800000` denotes minus infinity. -/
theorem ofBits_neg_inf : Ideal.ofBits .f32 0xFF800000#32 = ⊥ := by simp [Ideal.ofBits, Ideal.ieee]

/-- The cell's starting contents are `0`. -/
theorem pay5_apply : k0_pay5 (F := Ideal) (ix3 0 0 0) = 0 := Ideal.ofBits_zero_f32

/-- The column of maxima starts at minus infinity. -/
theorem pay8_apply (r : Fin 128) : k0_pay8 (F := Ideal) (ix3 0 r 0) = ⊥ := by
  unfold k0_pay8
  rw [shapeCast_self]
  exact ofBits_neg_inf

/-- The column of sums starts at `0`. -/
theorem pay9_apply (r : Fin 128) : k0_pay9 (F := Ideal) (ix3 0 r 0) = 0 := by
  unfold k0_pay9
  rw [shapeCast_self]
  exact Ideal.ofBits_zero_f32

/-- The column of picks starts at `0`. -/
theorem pay10_apply (r : Fin 128) : k0_pay10 (F := Ideal) (ix3 0 r 0) = 0 := by
  unfold k0_pay10
  rw [shapeCast_self]
  exact Ideal.ofBits_zero_f32

/-- A cast of a shape to itself changes nothing: the labels, -/
theorem pay6_eq (v3 : Vec Ideal S1x128x1 .i32) : k0_pay6 (F := Ideal) v3 = v3 := shapeCast_self _ _
/-- the weights, -/
theorem pay7_eq (v5 : Vec Ideal S1x128x1 .f32) : k0_pay7 v5 = v5 := shapeCast_self _ _
/-- the picks -/
theorem pay11_eq (v : FVec Ideal S1x128x1 .f32) : k0_pay11 v = v := shapeCast_self _ _
/-- and the maxima. -/
theorem pay12_eq (v : FVec Ideal S1x128x1 .f32) : k0_pay12 v = v := shapeCast_self _ _
/-- The logarithm is taken entry by entry. -/
theorem pay13_apply (v20 : Vec Ideal S1x128x1 .f32) (i : S1x128x1.Idx) : k0_pay13 v20 i = Ideal.log (v20 i) := rfl

/-! ## Layout steps at an index -/

/-- Putting lane `j` back into the reduced index `(0, r)` gives `(0, r, j)`. -/
theorem lift_lane (r : Fin 128) (j : Fin 3200) :
    reduces_S1x128x3200_S1x128.lift (ix2 (0 : Fin 1) r) j = ix3 (0 : Fin 1) r j := by
  funext a
  match a with
  | ⟨0, _⟩ => rfl
  | ⟨1, _⟩ => rfl
  | ⟨2, _⟩ => rfl

/-- Putting row `r` back into the reduced index `(0, 0)` gives `(0, r, 0)`. -/
theorem lift_row (r : Fin 128) :
    reduces_S1x128x1_S1x1.lift (ix2 (0 : Fin 1) (0 : Fin 1)) r = ix3 (0 : Fin 1) r (0 : Fin 1) := by
  funext a
  match a with
  | ⟨0, _⟩ => rfl
  | ⟨1, _⟩ => rfl
  | ⟨2, _⟩ => rfl

/-- A `[1, 128]` row viewed as the column `[1, 128, 1]` reads `(0, r)` at `(0, r, 0)`. -/
theorem cast_col {α : Type} (x : S1x128.Idx → α) (r : Fin 128) :
    shapeCast S1x128x1 x shapeCasts_S1x128_S1x128x1 (ix3 0 r 0) = x (ix2 0 r) :=
  shapeCast_apply x _ _ _ (by
    rw [Shape.rowMajor_val_two, Shape.rowMajor_val_three]
    show 0 * 128 + r.val = (0 * 128 + r.val) * 1 + 0
    omega)

/-- A `[1, 1]` cell viewed as `[1, 1, 1]`. -/
theorem cast_cell {α : Type} (x : S1x1.Idx → α) :
    shapeCast S1x1x1 x shapeCasts_S1x1_S1x1x1 (ix3 0 0 0) = x (ix2 0 0) :=
  shapeCast_apply x _ _ _ (by
    rw [Shape.rowMajor_val_two, Shape.rowMajor_val_three]
    rfl)

/-- A column `[1, 128, 1]` spread along the lanes reads `(0, r, 0)` at every `(0, r, j)`. -/
theorem bcast_col {α : Type} (x : S1x128x1.Idx → α) (r : Fin 128) (j : Fin 3200) :
    broadcastTo S1x128x3200 x broadcasts_S1x128x1_S1x128x3200 (ix3 0 r j) = x (ix3 0 r 0) :=
  broadcastTo_apply x _ _ _ (fun a => by
    match a with
    | ⟨0, _⟩ => rfl
    | ⟨1, _⟩ => rfl
    | ⟨2, _⟩ => rfl)

/-! ## The running maximum's step -/

/-- The new maximum at row `r` is the larger of the old one and the chunk's largest lane in that row. -/
theorem pay2_apply (v38 : Vec Ideal S1x128x3200 .f32) (v39 : Vec Ideal S1x128x1 .f32) (r : Fin 128) :
    k0_pay2 v38 v39 (ix3 0 r 0)
      = max (v39 (ix3 0 r 0)) (Cert.Wnll.famMax fun j : Fin 3200 => v38 (ix3 0 r j)) := by
  unfold k0_pay2
  refine congrArg (max (v39 (ix3 0 r 0))) ?_
  refine (cast_col _ r).trans ?_
  refine (Ideal.multiReduction_maximumf_single v38 _ _ _ _ (ix2 0 r)).trans ?_
  unfold Cert.Wnll.famMax
  show (Finset.univ : Finset (Fin 3200)).fold max (Ideal.ofBits .f32 0xFF800000#32)
      (fun j => v38 (reduces_S1x128x3200_S1x128.lift (ix2 0 r) j)) = _
  rw [ofBits_neg_inf]
  refine congrArg (fun f : Fin 3200 → EReal => Finset.fold max ⊥ f Finset.univ) (funext fun j => ?_)
  exact congrArg v38 (lift_lane r j)

/-! ## The running sum's step -/

/-- The new sum at row `r`: the old sum rescaled by `exp (old maximum - new maximum)`, plus the chunk's exponentials
    shifted by the new maximum. -/
theorem pay3_apply (v38 : Vec Ideal S1x128x3200 .f32) (v39 : Vec Ideal S1x128x1 .f32) (v43 : Vec Ideal S1x128x1 .f32)
    (r : Fin 128) :
    k0_pay3 v38 v39 v43 (ix3 0 r 0)
      = v43 (ix3 0 r 0) * Ideal.exp (v39 (ix3 0 r 0) - k0_pay2 v38 v39 (ix3 0 r 0))
        + ∑ j : Fin 3200, Ideal.exp (v38 (ix3 0 r j) - k0_pay2 v38 v39 (ix3 0 r 0)) := by
  unfold k0_pay3
  refine (congrFun (shapeCast_self _ _) (ix3 0 r 0)).trans ?_
  refine congrArg (v43 (ix3 0 r 0) * Ideal.exp (v39 (ix3 0 r 0) - k0_pay2 v38 v39 (ix3 0 r 0)) + ·) ?_
  refine (cast_col _ r).trans ?_
  refine (Ideal.multiReduction_add_single _ _ _ _ _ (ix2 0 r)).trans ?_
  refine Finset.sum_congr rfl fun (j : Fin 3200) _ => ?_
  show Ideal.exp (v38 (reduces_S1x128x3200_S1x128.lift (ix2 0 r) j)
      - broadcastTo S1x128x3200 (k0_pay2 v38 v39) broadcasts_S1x128x1_S1x128x3200 (reduces_S1x128x3200_S1x128.lift (ix2 0 r) j)) = _
  rw [lift_lane r j, bcast_col]

/-! ## The output cell's step -/

/-- The output cell: its earlier contents plus, over the 128 rows, weight times `(log sum + maximum) - pick`. -/
theorem pay1_apply (v6 : FVec Ideal S1x128x1 .f32) (v21 : FVec Ideal S1x128x1 .f32) (v22 : Vec Ideal S1x128x1 .f32)
    (v24 : Vec Ideal S1x128x1 .f32) (v29 : Vec Ideal S1x1x1 .f32) :
    k0_pay1 v6 v21 v22 v24 v29 (ix3 0 0 0)
      = v29 (ix3 0 0 0) + ∑ r : Fin 128, v6 (ix3 0 r 0) * ((v21 (ix3 0 r 0) + v22 (ix3 0 r 0)) - v24 (ix3 0 r 0)) := by
  unfold k0_pay1
  show shapeCast S1x1x1 v29 shapeCasts_S1x1x1_S1x1x1 (ix3 0 0 0) + _ = _
  rw [shapeCast_self]
  refine congrArg (v29 (ix3 0 0 0) + ·) ?_
  refine (cast_cell _).trans ?_
  refine (Ideal.multiReduction_add_single _ _ _ _ _ (ix2 0 0)).trans ?_
  refine Finset.sum_congr rfl fun (r : Fin 128) _ => ?_
  show (mulf v6 (subf (addf v21 v22) v24)) (reduces_S1x128x1_S1x1.lift (ix2 0 0) r) = _
  rw [lift_row r]
  rfl

/-! ## The running pick's step -/

/-- The word the body adds to the lane numbers in trip `k` is `3200 * k`. -/
theorem laneWord_eq (k : ℕ) (hk : k < 10) :
    Scalar.muli (Scalar.addi 0#32 (Scalar.muli (Scf.iv 0#32 1#32 k) 1#32)) 3200#32 = BitVec.ofNat 32 (3200 * k) := by
  apply BitVec.eq_of_toNat_eq
  simp only [Scalar.muli, Scalar.addi, IntOp.muli, IntOp.addi, Scf.iv, BitVec.toNat_mul, BitVec.toNat_add, BitVec.toNat_ofNat]
  omega

/-- The lane's position as a word equals the label word exactly when the position is the label, since positions
    stay far below `2 ^ 32`. -/
theorem hit_word (k j : ℕ) (hk : k < 10) (hj : j < 3200) (w : BitVec 32) :
    (BitVec.ofNat 32 j + BitVec.ofNat 32 (3200 * k) = w) ↔ 3200 * k + j = w.toNat := by
  constructor
  · rintro rfl
    rw [BitVec.toNat_add, BitVec.toNat_ofNat, BitVec.toNat_ofNat]
    omega
  · intro h
    apply BitVec.eq_of_toNat_eq
    rw [BitVec.toNat_add, BitVec.toNat_ofNat, BitVec.toNat_ofNat, ← h]
    omega

/-- A select on an equality test of words is the `if` on the equation. -/
theorem select_cmpi_eq {α : Type} (x y : BitVec 32) (a b : α) :
    Scalar.select (IntOp.cmpi .eq x y) a b = if x = y then a else b := by
  show (if BitVec.ofBool (x == y) = 1#1 then a else b) = _
  by_cases h : x = y
  · simp [h]
  · have hb : (x == y) = false := beq_eq_false_iff_ne.mpr h
    rw [hb, if_neg h]
    exact if_neg (by decide)

/-- The new pick at row `r`: the old one plus the chunk's entries at the lanes whose position `3200 * k + j` is the
    row's label. -/
theorem pay4_apply (v4 : IVec S1x128x1 32) (k : Fin k0_t1_loop.trips) (v38 : Vec Ideal S1x128x3200 .f32)
    (v59 : Vec Ideal S1x128x1 .f32) (r : Fin 128) :
    k0_pay4 v4 0#32 1#32 k v38 v59 (ix3 0 r 0)
      = v59 (ix3 0 r 0)
        + ∑ j : Fin 3200, if 3200 * k.val + j.val = (v4 (ix3 0 r 0)).toNat then v38 (ix3 0 r j) else 0 := by
  have hk : k.val < 10 := Nat.lt_of_lt_of_le k.isLt (le_of_eq loop_trips_ten)
  unfold k0_pay4
  refine congrArg (v59 (ix3 0 r 0) + ·) ?_
  refine (cast_col _ r).trans ?_
  refine (Ideal.multiReduction_add_single _ _ _ _ _ (ix2 0 r)).trans ?_
  refine Finset.sum_congr rfl fun (j : Fin 3200) _ => ?_
  show Scalar.select (IntOp.cmpi .eq
        (iota .tc S1x128x3200 32 [2] iota_S1x128x3200_d2_w32 (reduces_S1x128x3200_S1x128.lift (ix2 0 r) j)
          + Scalar.muli (Scalar.addi 0#32 (Scalar.muli (Scf.iv 0#32 1#32 k.val) 1#32)) 3200#32)
        (broadcastTo S1x128x3200 v4 broadcasts_S1x128x1_S1x128x3200 (reduces_S1x128x3200_S1x128.lift (ix2 0 r) j)))
      (v38 (reduces_S1x128x3200_S1x128.lift (ix2 0 r) j)) (Ideal.ofBits .f32 0x00000000#32) = _
  rw [lift_lane r j, bcast_col, iota_single_apply, laneWord_eq k.val hk, select_cmpi_eq, Ideal.ofBits_zero_f32]
  exact if_congr (hit_word k.val j.val hk j.isLt _) rfl rfl

/-! ## The columns against the row recurrences -/

/-- Chunk `k` of the block at row `r` is chunk `k` of that row of the logits. -/
theorem chunk_eq (chunk : ℕ → Vec Ideal S1x128x3200 .f32) (x0 : Vec Ideal S1x128x32000 .f32)
    (hchunk : ∀ k, k < 10 → ∀ (r : Fin 128) (j : Fin 3200) (h : 3200 * k + j.val < 32000),
        chunk k (ix3 0 r j) = x0 (ix3 0 r ⟨3200 * k + j.val, h⟩))
    (k : ℕ) (hk : k < 10) (r : Fin 128) (j : Fin 3200) :
    chunk k (ix3 0 r j) = Cert.Wnll.chunkAt (fun v => x0 (ix3 0 r v)) k j := by
  have h : 3200 * k + j.val < 32000 := by have := j.isLt; omega
  unfold Cert.Wnll.chunkAt
  rw [dif_pos h]
  exact hchunk k hk r j h

/-- The column of running maxima holds each row's running maximum. -/
theorem colMax_apply (chunk : ℕ → Vec Ideal S1x128x3200 .f32) (x0 : Vec Ideal S1x128x32000 .f32)
    (hchunk : ∀ k, k < 10 → ∀ (r : Fin 128) (j : Fin 3200) (h : 3200 * k + j.val < 32000),
        chunk k (ix3 0 r j) = x0 (ix3 0 r ⟨3200 * k + j.val, h⟩))
    (k : ℕ) (hk : k ≤ 10) (r : Fin 128) :
    colMax chunk k (ix3 0 r 0) = Cert.Wnll.runMax (Cert.Wnll.chunkAt fun v => x0 (ix3 0 r v)) k := by
  induction k with
  | zero => exact pay8_apply r
  | succ k ih =>
    show k0_pay12 (k0_pay2 (chunk k) (colMax chunk k)) (ix3 0 r 0) = _
    rw [pay12_eq]
    refine (pay2_apply (chunk k) (colMax chunk k) r).trans ?_
    rw [ih (by omega)]
    show _ = max _ (Cert.Wnll.famMax _)
    refine congrArg (max _) ?_
    exact congrArg Cert.Wnll.famMax (funext fun j => chunk_eq chunk x0 hchunk k (by omega) r j)

/-- The column of running sums holds each row's running sum. -/
theorem colSum_apply (chunk : ℕ → Vec Ideal S1x128x3200 .f32) (x0 : Vec Ideal S1x128x32000 .f32)
    (hchunk : ∀ k, k < 10 → ∀ (r : Fin 128) (j : Fin 3200) (h : 3200 * k + j.val < 32000),
        chunk k (ix3 0 r j) = x0 (ix3 0 r ⟨3200 * k + j.val, h⟩))
    (k : ℕ) (hk : k ≤ 10) (r : Fin 128) :
    colSum chunk k (ix3 0 r 0) = Cert.Wnll.runSum (Cert.Wnll.chunkAt fun v => x0 (ix3 0 r v)) k := by
  induction k with
  | zero => exact pay9_apply r
  | succ k ih =>
    show k0_pay3 (chunk k) (colMax chunk k) (colSum chunk k) (ix3 0 r 0) = _
    refine (pay3_apply (chunk k) (colMax chunk k) (colSum chunk k) r).trans ?_
    have hm : k0_pay2 (chunk k) (colMax chunk k) (ix3 0 r 0)
        = Cert.Wnll.runMax (Cert.Wnll.chunkAt fun v => x0 (ix3 0 r v)) (k + 1) :=
      (congrFun (pay12_eq _) _).symm.trans (colMax_apply chunk x0 hchunk (k + 1) hk r)
    rw [hm, ih (by omega), colMax_apply chunk x0 hchunk k (by omega) r]
    show _ = _ * _ + ∑ j, _
    refine congrArg (_ + ·) (Finset.sum_congr rfl fun j _ => ?_)
    rw [chunk_eq chunk x0 hchunk k (by omega) r j]

/-- The column of running picks holds each row's running pick. -/
theorem colPick_apply (chunk : ℕ → Vec Ideal S1x128x3200 .f32) (x0 : Vec Ideal S1x128x32000 .f32)
    (x1 : Vec Ideal S1x128x1 .i32)
    (hchunk : ∀ k, k < 10 → ∀ (r : Fin 128) (j : Fin 3200) (h : 3200 * k + j.val < 32000),
        chunk k (ix3 0 r j) = x0 (ix3 0 r ⟨3200 * k + j.val, h⟩))
    (k : ℕ) (hk : k ≤ 10) (r : Fin 128) :
    colPick chunk x1 k (ix3 0 r 0)
      = Cert.Wnll.runPick (Cert.Wnll.chunkAt fun v => x0 (ix3 0 r v)) (Cert.Wnll.hitAt (x1 (ix3 0 r 0)).toNat) k := by
  induction k with
  | zero => exact pay10_apply r
  | succ k ih =>
    have hlt : k < k0_t1_loop.trips := by rw [loop_trips_ten]; omega
    have hstep : colPick chunk x1 (k + 1)
        = k0_pay11 (k0_pay4 (k0_pay6 x1) 0#32 1#32 ⟨k, hlt⟩ (chunk k) (colPick chunk x1 k)) := by
      show (if h : k < k0_t1_loop.trips then
          k0_pay11 (k0_pay4 (k0_pay6 x1) 0#32 1#32 ⟨k, h⟩ (chunk k) (colPick chunk x1 k))
        else colPick chunk x1 k) = _
      rw [dif_pos hlt]
    rw [hstep, pay11_eq, pay6_eq]
    refine (pay4_apply x1 ⟨k, hlt⟩ (chunk k) (colPick chunk x1 k) r).trans ?_
    rw [ih (by omega)]
    show _ = _ + ∑ j, _
    refine congrArg (_ + ·) (Finset.sum_congr rfl fun j _ => ?_)
    rw [chunk_eq chunk x0 hchunk k (by omega) r j]
    exact if_congr Iff.rfl rfl rfl

/-! ## The block's contribution -/

/-- The block's output cell holds its earlier contents plus the weighted sum, over the block's 128 rows, of each row's
    loss as the chunked walk computes it after all 10 chunks. -/
theorem blockOut_apply (chunk : ℕ → Vec Ideal S1x128x3200 .f32) (x0 : Vec Ideal S1x128x32000 .f32) (x1 : Vec Ideal S1x128x1 .i32)
    (x2 : Vec Ideal S1x128x1 .f32) (prev : Vec Ideal S1x1x1 .f32)
    (hchunk : ∀ k, k < 10 → ∀ (r : Fin 128) (j : Fin 3200) (h : 3200 * k + j.val < 32000),
        chunk k (ix3 0 r j) = x0 (ix3 0 r ⟨3200 * k + j.val, h⟩)) :
    blockOut chunk x1 x2 prev (ix3 0 0 0)
      = prev (ix3 0 0 0) + ∑ r : Fin 128, x2 (ix3 0 r 0)
          * Cert.Wnll.lossOnline (Cert.Wnll.chunkAt (fun v => x0 (ix3 0 r v))) (Cert.Wnll.hitAt (x1 (ix3 0 r 0)).toNat) 10 := by
  unfold blockOut
  refine (pay1_apply _ _ _ _ _).trans ?_
  refine congrArg (prev (ix3 0 0 0) + ·) (Finset.sum_congr rfl fun r _ => ?_)
  rw [pay7_eq, pay13_apply, colSum_apply chunk x0 hchunk 10 le_rfl r, colMax_apply chunk x0 hchunk 10 le_rfl r,
    colPick_apply chunk x0 x1 hchunk 10 le_rfl r]
  rfl

end Cert.KernelIdeal.Loss

end
-- ==== Proof.KernelGrid.lean ====
/-
  The kernel's output array.  Each grid point adds its tile's weighted losses to the cell of its batch row, the first
  tile of a row starting the cell from zero; so after tile `i` of batch row `b` the cell holds the sum of the tile
  losses `0 .. i` of that row (`accN`, by induction on the point), the cell is written back after tile 31, and the
  result array's cell `b` ends at the row's total (`rowTotal`, `final_out`).
-/
import proofs.«426176_j20177756356941_3_alg».proof.Proof.KernelBlocks
import proofs.«426176_j20177756356941_3_alg».proof.Proof.KernelPieces
import proofs.«426176_j20177756356941_3_alg».proof.Proof.KernelIndex
import proofs.«426176_j20177756356941_3_alg».proof.Proof.Spec
import Idealize.ShloMosaic.PureOps.Ideal.Laws

noncomputable section

open scoped BigOperators

namespace Cert.KernelIdeal.KGrid

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Loss Cert.Wnll

variable (m : (ℓ : Loc nD τ sig) → Buf (Elt Ideal) ℓ)

/-- The three input blocks at a point, at their literal types. -/
abbrev xblk (c : Dev nD) (t : Fin cfg0.N) : Vec Ideal S1x128x32000 .f32 := iblk m c 0 t
abbrev lblk (c : Dev nD) (t : Fin cfg0.N) : Vec Ideal S1x128x1 .i32 := iblk m c 1 t
abbrev wblk (c : Dev nD) (t : Fin cfg0.N) : Vec Ideal S1x128x1 .f32 := iblk m c 2 t

/-- The three arrays as the region finds them, at their literal types. -/
abbrev xArr (c : Dev nD) : S2x4096x32000.Idx → EReal := V m c main_arg0
abbrev lArr (c : Dev nD) : S2x4096x1.Idx → BitVec 32 := V m c main_v45
abbrev wArr (c : Dev nD) : S2x4096x1.Idx → EReal := V m c main_v46

/-- The loss of position `(b, s)` as the chunked walk computes it, from the arrays as the region finds them. -/
def posLoss (c : Dev nD) (b : Fin 2) (s : Fin 4096) : EReal :=
  wArr m c (ix3 b s 0)
    * lossOnline (chunkAt fun v => xArr m c (ix3 b s v)) (hitAt (lArr m c (ix3 b s 0)).toNat) 10

/-- Tile `i` of batch row `b`: its 128 positions' weighted losses, summed. -/
def tileLoss (c : Dev nD) (b : Fin 2) (i : Fin 32) : EReal := ∑ r : Fin 128, posLoss m c b (seqPos i r)

/-- The same with the tile a natural number (zero past the last tile). -/
def tileLossN (c : Dev nD) (b : Fin 2) (i : ℕ) : EReal := if h : i < 32 then tileLoss m c b ⟨i, h⟩ else 0

/-- The running total of batch row `b` after tile `k`: the tile losses `0 .. k`. -/
def accN (c : Dev nD) (b : Fin 2) (k : ℕ) : EReal := ∑ i ∈ Finset.range (k + 1), tileLossN m c b i

/-- A batch row's total. -/
def rowTotal (c : Dev nD) (b : Fin 2) : EReal := ∑ i ∈ Finset.range 32, tileLossN m c b i

/-- The same with the row a natural number. -/
def rowTotalN (c : Dev nD) (b : ℕ) : EReal := if h : b < 2 then rowTotal m c ⟨b, h⟩ else 0

/-- The result array: cell `b` holds batch row `b`'s total. -/
def outArr (c : Dev nD) : S2x1x1.Idx → EReal := fun j => rowTotalN m c (j 0).val

/-- The zero the first tile of a row starts the cell from. -/
theorem zero_cell : k0_pay5 (F := Ideal) (ix3 0 0 0) = 0 := by
  unfold k0_pay5
  exact Ideal.ofBits_zero_f32

/-- One point's body adds its tile's loss to what the cell held: stated for any three blocks that hold rows
    `128 * i + r` of batch row `b` of the three arrays. -/
theorem blockOut_tile (c : Dev nD) (x0 : Vec Ideal S1x128x32000 .f32) (x1 : Vec Ideal S1x128x1 .i32)
    (x2 : Vec Ideal S1x128x1 .f32) (prev : Vec Ideal S1x1x1 .f32) (b : Fin 2) (i : Fin 32)
    (h0 : ∀ (r : Fin 128) (v : Fin 32000), x0 (ix3 0 r v) = xArr m c (ix3 b (seqPos i r) v))
    (h1 : ∀ r : Fin 128, x1 (ix3 0 r 0) = lArr m c (ix3 b (seqPos i r) 0))
    (h2 : ∀ r : Fin 128, x2 (ix3 0 r 0) = wArr m c (ix3 b (seqPos i r) 0)) :
    blockOut (chunkOf x0) x1 x2 prev (ix3 0 0 0) = prev (ix3 0 0 0) + tileLoss m c b i := by
  have hs : (∑ r : Fin 128, x2 (ix3 0 r 0)
        * lossOnline (chunkAt fun v => x0 (ix3 0 r v)) (hitAt (x1 (ix3 0 r 0)).toNat) 10) = tileLoss m c b i := by
    unfold tileLoss posLoss
    refine Finset.sum_congr rfl fun r _ => ?_
    have e0 : (fun v => x0 (ix3 0 r v)) = fun v => xArr m c (ix3 b (seqPos i r) v) := funext fun v => h0 r v
    rw [e0, h1 r, h2 r]
  refine (blockOut_apply (chunkOf x0) x0 x1 x2 prev (fun k hk r j h => chunkOf_apply x0 k hk r j h)).trans ?_
  rw [hs]

/-- The first tile's running total is its own loss. -/
theorem accN_first (c : Dev nD) (b : Fin 2) (k : ℕ) (hk : k = 0) (hk' : k < 32) :
    accN m c b k = tileLoss m c b ⟨k, hk'⟩ := by
  subst hk
  unfold accN
  rw [Finset.sum_range_one]
  unfold tileLossN
  rw [dif_pos hk']

/-- A later tile's running total is the total so far plus its own loss. -/
theorem accN_succ (c : Dev nD) (b : Fin 2) (k : ℕ) (hk' : k + 1 < 32) :
    accN m c b (k + 1) = accN m c b k + tileLoss m c b ⟨k + 1, hk'⟩ := by
  unfold accN
  rw [Finset.sum_range_succ]
  refine congrArg (fun z : EReal => (∑ i ∈ Finset.range (k + 1), tileLossN m c b i) + z) ?_
  unfold tileLossN
  rw [dif_pos hk']

/-- The value the body leaves at a point, given what the cell held. -/
theorem point_value (c : Dev nD) (t : Fin cfg0.N) (prev : Vec Ideal S1x1x1 .f32) :
    blockOut (chunkOf (xblk m c t)) (lblk m c t) (wblk m c t) prev (ix3 0 0 0)
      = prev (ix3 0 0 0) + tileLoss m c (rowOfPt t) (tileOfPt t) :=
  blockOut_tile m c (xblk m c t) (lblk m c t) (wblk m c t) prev (rowOfPt t) (tileOfPt t)
    (fun r v => iblk0_apply m c t r v) (fun r => iblk1_apply m c t r) (fun r => iblk2_apply m c t r)

/-- What the output's staging buffer holds after each point is the running total of its batch row. -/
theorem outsAt_eq (c : Dev nD) : ∀ (n : ℕ) (h : n < cfg0.N),
    outsAt0 m c n h (ix3 0 0 0) = accN m c (rowOfPt ⟨n, h⟩) (n % 32)
  | 0, h => by
    have e' : outsAt0 m c 0 h = blockOut (chunkOf (xblk m c ⟨0, h⟩)) (lblk m c ⟨0, h⟩) (wblk m c ⟨0, h⟩) (k0_pay5 (F := Ideal)) :=
      (outsAt0_A m c ⟨0, h⟩ (Nat.zero_mod 32)).trans (out0_A_3_eq _ _ _ _ _ _ _ _ _ _ _ _ _ _ _ _ _ _ _ _)
    rw [e', point_value, zero_cell, zero_add]
    exact (accN_first m c (rowOfPt ⟨0, h⟩) (0 % 32) (Nat.zero_mod 32) (Nat.mod_lt _ (by norm_num))).symm
  | n + 1, h => by
    by_cases h0 : (n + 1) % 32 = 0
    · have e' : outsAt0 m c (n + 1) h = blockOut (chunkOf (xblk m c ⟨n + 1, h⟩)) (lblk m c ⟨n + 1, h⟩) (wblk m c ⟨n + 1, h⟩) (k0_pay5 (F := Ideal)) :=
        (outsAt0_A m c ⟨n + 1, h⟩ h0).trans (out0_A_3_eq _ _ _ _ _ _ _ _ _ _ _ _ _ _ _ _ _ _ _ _)
      rw [e', point_value, zero_cell, zero_add]
      exact (accN_first m c (rowOfPt ⟨n + 1, h⟩) ((n + 1) % 32) h0 (Nat.mod_lt _ (by norm_num))).symm
    · have e' : outsAt0 m c (n + 1) h = blockOut (chunkOf (xblk m c ⟨n + 1, h⟩)) (lblk m c ⟨n + 1, h⟩) (wblk m c ⟨n + 1, h⟩)
          (outsAt0 m c n (Nat.lt_of_succ_lt h)) :=
        (outsAt0_B m c ⟨n + 1, h⟩ h0).trans (out0_B_3_eq _ _ _ _ _ _ _ _ _ _ _ _ _ _ _ _ _ _ _ _ _)
      rw [e', point_value, outsAt_eq c n (Nat.lt_of_succ_lt h)]
      have hrow : rowOfPt ⟨n, Nat.lt_of_succ_lt h⟩ = rowOfPt ⟨n + 1, h⟩ := Fin.ext (by show n / 32 = (n + 1) / 32; omega)
      have hmod : (n + 1) % 32 = n % 32 + 1 := by omega
      have hlt : n % 32 + 1 < 32 := by omega
      have htile : tileOfPt ⟨n + 1, h⟩ = ⟨n % 32 + 1, hlt⟩ := Fin.ext hmod
      rw [hrow, htile, hmod]
      exact (accN_succ m c (rowOfPt ⟨n + 1, h⟩) (n % 32) hlt).symm

/-- After the last tile of a row the running total is the row's total. -/
theorem accN_last (c : Dev nD) (b : Fin 2) : accN m c b 31 = rowTotal m c b := rfl

/-- An index of the result array is in point `t`'s block iff each coordinate is in the block's range on its axis. -/
theorem mem_blk3 (t : Fin cfg0.N) (i : S2x1x1.Idx) :
    i ∈ ((cfg0.win 3).blk t).view.set
      ↔ ∀ a : Fin 3, win0_3.index t a * S1x1x1.size a ≤ (i a).val ∧ (i a).val < win0_3.index t a * S1x1x1.size a + S1x1x1.size a := by
  show i ∈ ((View.whole main_v47).slice (win0_3.rect t)).set ↔ _
  rw [View.set_slice_whole, Rect.mem_set_unit]
  exact Iff.rfl

/-- What a write-back writes is the result array's block: the cell of the point's batch row at that row's total. -/
theorem flushed_eq (c : Dev nD) (t : Fin cfg0.N) (hf : (cfg0.win 3).flush t = true) :
    (dats m 0 c).flushed 3 t = ((cfg0.win 3).blk t).view.read (Elt Ideal) (outArr m c) := by
  have h31 : t.val % 32 = 31 := (flush0_3 t).mp hf
  obtain ⟨-, -, -, -, -, -, -, -, -, e0, e1, e2⟩ := idx_facts t
  show (cfg0.win 3).cut (grid0.coords t) ((dats m 0 c).after 3 t) = _
  rw [after0_3]
  funext y
  rw [View.read_apply]
  have hy0 : (y 0).val < 1 := (y 0).isLt
  have hy1 : (y 1).val < 1 := (y 1).isLt
  have hy2 : (y 2).val < 1 := (y 2).isLt
  have hemb : ((((cfg0.win 3).blk t).view.emb y) 0).val = t.val / 32 := by
    show win0_3.index t (0 : Fin 3) * 1 + 1 * (y 0).val = t.val / 32
    omega
  have hy : y = ix3 0 0 0 := by
    funext a
    apply Fin.ext
    match a with
    | ⟨0, _⟩ => show (y 0).val = 0; omega
    | ⟨1, _⟩ => show (y 1).val = 0; omega
    | ⟨2, _⟩ => show (y 2).val = 0; omega
  have hb : t.val / 32 < 2 := by have h : t.val < 64 := lt_of_lt_of_eq t.isLt N64; omega
  show outsAt0 m c t.val t.isLt y = outArr m c (((cfg0.win 3).blk t).view.emb y)
  have hL : outsAt0 m c t.val t.isLt y = rowTotal m c (rowOfPt t) := by
    rw [hy, outsAt_eq m c t.val t.isLt, h31]
    exact accN_last m c (rowOfPt t)
  have hR : outArr m c (((cfg0.win 3).blk t).view.emb y) = rowTotal m c (rowOfPt t) := by
    unfold outArr rowTotalN
    rw [dif_pos (by rw [hemb]; exact hb)]
    exact congrArg (rowTotal m c) (Fin.ext hemb)
  rw [hL, hR]

/-- The result array after the run: every cell is covered by the write-back after its row's last tile. -/
theorem final_out (c : Dev nD) : (dats m 0 c).arrAt 3 cfg0.N = outArr m c :=
  (dats m 0 c).arrAt_eq_of_cover 3 (outArr m c) (flushed_eq m c) fun i => by
    have hi0 : (i 0).val < 2 := (i 0).isLt
    have hi1 : (i 1).val < 1 := (i 1).isLt
    have hi2 : (i 2).val < 1 := (i 2).isLt
    have ht : 32 * (i 0).val + 31 < cfg0.N := by rw [N64]; omega
    obtain ⟨-, -, -, -, -, -, -, -, -, e0, e1, e2⟩ := idx_facts ⟨32 * (i 0).val + 31, ht⟩
    refine ⟨⟨32 * (i 0).val + 31, ht⟩, (flush0_3 _).mpr (by show (32 * (i 0).val + 31) % 32 = 31; omega), ?_⟩
    rw [mem_blk3]
    intro a
    match a with
    | ⟨0, _⟩ =>
      show win0_3.index ⟨32 * (i 0).val + 31, ht⟩ (0 : Fin 3) * 1 ≤ (i 0).val
        ∧ (i 0).val < win0_3.index ⟨32 * (i 0).val + 31, ht⟩ (0 : Fin 3) * 1 + 1
      have : win0_3.index ⟨32 * (i 0).val + 31, ht⟩ (0 : Fin 3) = (32 * (i 0).val + 31) / 32 := e0
      omega
    | ⟨1, _⟩ =>
      show win0_3.index ⟨32 * (i 0).val + 31, ht⟩ (1 : Fin 3) * 1 ≤ (i 1).val
        ∧ (i 1).val < win0_3.index ⟨32 * (i 0).val + 31, ht⟩ (1 : Fin 3) * 1 + 1
      omega
    | ⟨2, _⟩ =>
      show win0_3.index ⟨32 * (i 0).val + 31, ht⟩ (2 : Fin 3) * 1 ≤ (i 2).val
        ∧ (i 2).val < win0_3.index ⟨32 * (i 0).val + 31, ht⟩ (2 : Fin 3) * 1 + 1
      omega

end Cert.KernelIdeal.KGrid

end
-- ==== Proof.KernelHost.lean ====
/- The host side of the idealized kernel program. Before the region the host computes, from the labels, the
   weights (2 at the positions of a run 11, 22, 33 or of a run 44, 55; 1 elsewhere) and reshapes labels and weights to
   a trailing unit axis; after the region it divides the sum of the region's output by the sum of the weights. Here the
   weights are named as a function of the labels, the region-entry contents of the three buffers are read off the host
   operations, the reshape is read at an index, and the program's result is read off the operations after the region. -/
import proofs.«426176_j20177756356941_3_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

set_option maxRecDepth 16384

noncomputable section

namespace Cert.KernelIdeal.KHost

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## The weights mask as a function of the labels

The host program marks, in an all-false mask over the 2 x 4096 label positions, three consecutive
positions whose labels are 11, 22, 33 (one scatter per offset 0, 1, 2 of the width-4094 window) and
two consecutive positions whose labels are 44, 55 (one scatter per offset 0, 1 of the width-4095
window); a marked position weighs 2, every other position 1. -/

/-- The all-false mask the scatters start from. -/
def mask0 : (⟨S2x4096, .i1⟩ : BufTy).Contents (Elt F) :=
  broadcastInDim S2x4096 ![] bcast_S_S2x4096 (constantI S_ 1 0#1)

/-- Window start `s` (of 4094) begins a run 11, 22, 33. -/
def run3 (Lb : (⟨S2x4096, .i32⟩ : BufTy).Contents (Elt F)) : (⟨S2x4094, .i1⟩ : BufTy).Contents (Elt F) :=
  andi (andi (andi (broadcastInDim S2x4094 ![] bcast_S_S2x4094 (constantI S_ 1 1#1))
      (cmpi .eq (extractStridedSlice S2x4094 ![0, 0] Lb slices_S2x4096_S2x4094_0_0)
        (broadcastInDim S2x4094 ![] bcast_S_S2x4094 (constantI S_ 32 11#32))))
      (cmpi .eq (extractStridedSlice S2x4094 ![0, 1] Lb slices_S2x4096_S2x4094_0_1)
        (broadcastInDim S2x4094 ![] bcast_S_S2x4094 (constantI S_ 32 22#32))))
    (cmpi .eq (extractStridedSlice S2x4094 ![0, 2] Lb slices_S2x4096_S2x4094_0_2)
      (broadcastInDim S2x4094 ![] bcast_S_S2x4094 (constantI S_ 32 33#32)))

/-- The mask after the run's first position is marked. -/
def mark3a (Lb : (⟨S2x4096, .i32⟩ : BufTy).Contents (Elt F)) : (⟨S2x4096, .i1⟩ : BufTy).Contents (Elt F) :=
  Host.scatter scatter_S2x4096_S1_S2x4094_01_n_1_0 (fun _ b => b) (mask0 (F := F))
    (broadcastInDim S1 ![] bcast_S_S1 (constantI S_ 32 0#32))
    (ori (extractStridedSlice S2x4094 ![0, 0] (mask0 (F := F)) slices_S2x4096_S2x4094_0_0) (run3 Lb))

/-- … its second position. -/
def mark3b (Lb : (⟨S2x4096, .i32⟩ : BufTy).Contents (Elt F)) : (⟨S2x4096, .i1⟩ : BufTy).Contents (Elt F) :=
  Host.scatter scatter_S2x4096_S1_S2x4094_01_n_1_0 (fun _ b => b) (mark3a Lb)
    (broadcastInDim S1 ![] bcast_S_S1 (constantI S_ 32 1#32))
    (ori (extractStridedSlice S2x4094 ![0, 1] (mark3a Lb) slices_S2x4096_S2x4094_0_1) (run3 Lb))

/-- … its third position. -/
def mark3c (Lb : (⟨S2x4096, .i32⟩ : BufTy).Contents (Elt F)) : (⟨S2x4096, .i1⟩ : BufTy).Contents (Elt F) :=
  Host.scatter scatter_S2x4096_S1_S2x4094_01_n_1_0 (fun _ b => b) (mark3b Lb)
    (broadcastInDim S1 ![] bcast_S_S1 (constantI S_ 32 2#32))
    (ori (extractStridedSlice S2x4094 ![0, 2] (mark3b Lb) slices_S2x4096_S2x4094_0_2) (run3 Lb))

/-- Window start `s` (of 4095) begins a run 44, 55. -/
def run2 (Lb : (⟨S2x4096, .i32⟩ : BufTy).Contents (Elt F)) : (⟨S2x4095, .i1⟩ : BufTy).Contents (Elt F) :=
  andi (andi (broadcastInDim S2x4095 ![] bcast_S_S2x4095 (constantI S_ 1 1#1))
      (cmpi .eq (extractStridedSlice S2x4095 ![0, 0] Lb slices_S2x4096_S2x4095_0_0)
        (broadcastInDim S2x4095 ![] bcast_S_S2x4095 (constantI S_ 32 44#32))))
    (cmpi .eq (extractStridedSlice S2x4095 ![0, 1] Lb slices_S2x4096_S2x4095_0_1)
      (broadcastInDim S2x4095 ![] bcast_S_S2x4095 (constantI S_ 32 55#32)))

/-- The mask after the second run's first position is marked too. -/
def mark2a (Lb : (⟨S2x4096, .i32⟩ : BufTy).Contents (Elt F)) : (⟨S2x4096, .i1⟩ : BufTy).Contents (Elt F) :=
  Host.scatter scatter_S2x4096_S1_S2x4095_01_n_1_0 (fun _ b => b) (mark3c Lb)
    (broadcastInDim S1 ![] bcast_S_S1 (constantI S_ 32 0#32))
    (ori (extractStridedSlice S2x4095 ![0, 0] (mark3c Lb) slices_S2x4096_S2x4095_0_0) (run2 Lb))

/-- … and its second position: the whole mask. -/
def mark2b (Lb : (⟨S2x4096, .i32⟩ : BufTy).Contents (Elt F)) : (⟨S2x4096, .i1⟩ : BufTy).Contents (Elt F) :=
  Host.scatter scatter_S2x4096_S1_S2x4095_01_n_1_0 (fun _ b => b) (mark2a Lb)
    (broadcastInDim S1 ![] bcast_S_S1 (constantI S_ 32 1#32))
    (ori (extractStridedSlice S2x4095 ![0, 1] (mark2a Lb) slices_S2x4096_S2x4095_0_1) (run2 Lb))

/-- The weights: 2 at a marked position, 1 elsewhere. -/
def weights (Lb : (⟨S2x4096, .i32⟩ : BufTy).Contents (Elt F)) : (⟨S2x4096, .f32⟩ : BufTy).Contents (Elt F) :=
  id (select (mark2b Lb)
    (broadcastInDim S2x4096 ![] bcast_S_S2x4096 (constant (F := F) S_ .f32 0x40000000#32))
    (broadcastInDim S2x4096 ![] bcast_S_S2x4096 (constant (F := F) S_ .f32 0x3F800000#32)))

/-- The weights' buffer when the region is entered: the host operations before it, composed. -/
theorem V_main_v44 (c : Dev nD) : V m c main_v44 = weights (m ((c : Thread nD τ).loc main_arg1)) := by
  dsimp only [V, V0]
  simp only [hostOps0, hostOps0_1, hostOps0_2, List.flatten_cons, List.flatten_nil, List.append_nil, List.cons_append, List.nil_append]
  after_results_simp
  simp only [StableHlo.TRef.ofBuf, StableHlo.TRef.toBuf, cast_eq]
  rfl

/-- The labels window's array: the labels with a trailing unit axis. -/
theorem V_main_v45 (c : Dev nD) :
    V m c main_v45 = shapeCast S2x4096x1 (m ((c : Thread nD τ).loc main_arg1)) shapeCasts_S2x4096_S2x4096x1 := by
  dsimp only [V, V0]
  simp only [hostOps0, hostOps0_1, hostOps0_2, List.flatten_cons, List.flatten_nil, List.append_nil, List.cons_append, List.nil_append]
  after_results_simp
  rfl

/-- The weights window's array: the weights with a trailing unit axis. -/
theorem V_main_v46 (c : Dev nD) :
    V m c main_v46 = shapeCast S2x4096x1 (weights (m ((c : Thread nD τ).loc main_arg1))) shapeCasts_S2x4096_S2x4096x1 := by
  dsimp only [V, V0]
  simp only [hostOps0, hostOps0_1, hostOps0_2, List.flatten_cons, List.flatten_nil, List.append_nil, List.cons_append, List.nil_append]
  after_results_simp
  simp only [StableHlo.TRef.ofBuf, StableHlo.TRef.toBuf, cast_eq]
  rfl

/-- The trailing unit axis read at an index: position `(b, s, 0)` of the reshaped array is position `(b, s)` of the
    operand (both have row-major position `b * 4096 + s`). -/
theorem reshape_apply {α : Type} (x : S2x4096.Idx → α) (b : Fin 2) (s : Fin 4096) :
    shapeCast S2x4096x1 x shapeCasts_S2x4096_S2x4096x1 (ValueIdx.ix3 b s 0) = x (ValueIdx.ix2 b s) := by
  refine shapeCast_apply x shapeCasts_S2x4096_S2x4096x1 (ValueIdx.ix3 b s 0) (ValueIdx.ix2 b s) ?_
  rw [Shape.rowMajor_val_two, Shape.rowMajor_val_three]
  show b.val * 4096 + s.val = (b.val * 4096 + s.val) * 1 + 0
  omega

/-- The program's result: the host operations after the region — the sum of the region's output over the sum of the
    weights — applied to the region's output array and to the weights, which the region does not touch. -/
theorem tail_main_v50 (c : Dev nD) (OUT : Buf (Elt F) ((c : Thread nD τ).loc main_v47))
    (hOUT : (dats m 0 c).arrAt 3 cfg0.N = OUT) :
    Pipeline.afterTail₀ cfgs (dats m) 0 (V0 m) [hostOps1] c main_v50
      = Host.divf (Host.reduceAdd OUT (constant (F := F) S_ .f32 0x00000000#32) reducesTo_S2x1x1_S_d0_1_2 h_S_)
                  (Host.reduceAdd (weights (m ((c : Thread nD τ).loc main_arg1))) (constant (F := F) S_ .f32 0x00000000#32) reducesTo_S2x4096_S_d0_1 h_S_) := by
  unfold Pipeline.afterTail₀
  show StableHlo.after hostOps1 _ (Proc.devRef .tc main_v50) = _
  after_results
  have e47 : Pipeline.withArrays (cfgs 0).spec c (V0 m c) (fun w => (dats m 0 c).arrAt w (cfgs 0).N)
      (Proc.devRef .tc main_v47) = OUT :=
    (Pipeline.withArrays_arr spec0 launch0.win.arr_inj c _ _ 3).trans hOUT
  have e44 : Pipeline.withArrays (cfgs 0).spec c (V0 m c) (fun w => (dats m 0 c).arrAt w (cfgs 0).N)
      (Proc.devRef .tc main_v44) = weights (m ((c : Thread nD τ).loc main_arg1)) :=
    (Pipeline.withArrays_of_ne _ c (V0 m c) _ main_v44
      (by exact (by decide : ∀ w, Pipeline.arrRef spec0 w ≠ main_v44))).trans (V_main_v44 m c)
  rw [e47, e44]

end Cert.KernelIdeal.KHost

end
-- ==== Proof.SumIndex.lean ====
/-
  Two re-indexings of finite sums of extended reals.

  The extended reals are an additive commutative monoid, so a finite sum may be re-indexed along any bijection of its
  index set. Two bijections are used.

  * A rank-2 index of extents 2 and 4096 is a pair (batch row, position), and a position `s < 4096` is uniquely
    `128 * t + r` with `t < 32` and `r < 128` (quotient and remainder of `s` by 128). So a sum over the rank-2 index
    set is the triple sum over the batch row, the tile and the row inside the tile.
  * A rank-3 index of extents 2, 1 and 1 is determined by its first coordinate, the other two being `0`, the only
    element of `Fin 1`. So a sum over that index set is the sum over the first coordinate.
-/
import Idealize.ShloMosaic.Lib.ValueIdx
import proofs.«426176_j20177756356941_3_alg».proof.Proof.Positions
import Mathlib.Data.EReal.Basic
import Mathlib.Data.Fintype.BigOperators
import Mathlib.Algebra.BigOperators.Group.Finset.Defs

noncomputable section

open scoped BigOperators

namespace Cert.Wnll

open Idealize.ShloMosaic Idealize.ShloMosaic.ValueIdx

/-! ## Positions as (tile, row) pairs -/

/-- The position `128 * t + r` determines the pair `(t, r)`: the tile is the quotient by 128 and the row the
    remainder; conversely every position below 4096 arises so. -/
def posEquiv : Fin 32 × Fin 128 ≃ Fin 4096 where
  toFun p := seqPos p.1 p.2
  invFun s := (⟨s.val / 128, by have := s.isLt; omega⟩, ⟨s.val % 128, Nat.mod_lt _ (by decide)⟩)
  left_inv p := by
    obtain ⟨t, r⟩ := p
    have ht := t.isLt
    have hr := r.isLt
    refine Prod.ext (Fin.ext ?_) (Fin.ext ?_)
    · show (128 * t.val + r.val) / 128 = t.val
      omega
    · show (128 * t.val + r.val) % 128 = r.val
      omega
  right_inv s := by
    refine Fin.ext ?_
    show 128 * (s.val / 128) + s.val % 128 = s.val
    omega

theorem posEquiv_apply (t : Fin 32) (r : Fin 128) : posEquiv (t, r) = seqPos t r := rfl

/-- A sum over the 4096 positions is the double sum over the 32 tiles and the 128 rows of a tile. -/
theorem sum_fin4096 {M : Type*} [AddCommMonoid M] (h : Fin 4096 → M) :
    ∑ s : Fin 4096, h s = ∑ t : Fin 32, ∑ r : Fin 128, h (seqPos t r) := by
  rw [← Equiv.sum_comp posEquiv h, Fintype.sum_prod_type]
  rfl

/-- A sum over the rank-2 index set of extents 2 and 4096 is the triple sum over batch row, tile and row. -/
theorem sum_positions (f : (⟨2, ![2, 4096]⟩ : Shape).Idx → EReal) :
    ∑ i : (⟨2, ![2, 4096]⟩ : Shape).Idx, f i = ∑ b : Fin 2, ∑ t : Fin 32, ∑ r : Fin 128, f (ix2 b (seqPos t r)) := by
  rw [sum_idx2 f]
  refine Fintype.sum_congr _ _ fun b => ?_
  exact sum_fin4096 fun s => f (ix2 b s)

/-! ## One cell per batch row -/

/-- A rank-3 index of extents 2, 1, 1 is its first coordinate: the other two can only be `0`. -/
def cellEquiv : (⟨3, ![2, 1, 1]⟩ : Shape).Idx ≃ Fin 2 where
  toFun j := j 0
  invFun b := ix3 b 0 0
  left_inv j := by
    funext a
    match a with
    | ⟨0, _⟩ => rfl
    | ⟨1, _⟩ => exact Subsingleton.elim (α := Fin 1) _ _
    | ⟨2, _⟩ => exact Subsingleton.elim (α := Fin 1) _ _
  right_inv _ := rfl

/-- A sum over the rank-3 index set of extents 2, 1, 1 is the sum over the first coordinate. -/
theorem sum_cells (g : (⟨3, ![2, 1, 1]⟩ : Shape).Idx → EReal) :
    ∑ j : (⟨3, ![2, 1, 1]⟩ : Shape).Idx, g j = ∑ b : Fin 2, g (ix3 b 0 0) := by
  rw [← Equiv.sum_comp cellEquiv.symm g]
  rfl

end Cert.Wnll

end
-- ==== Proof.OnlineSoftmax.lean ====
/-
  The chunked ("online") softmax loss equals the one-pass log-softmax loss on a row of finite reals.

  Walking the chunks, the running maximum after k >= 1 chunks is a real number M_k, the largest entry seen so far,
  and the running sum is the sum of exp (x - M_k) over the entries seen so far: rescaling the old sum by
  exp (M_k - M_(k+1)) turns every old term exp (x - M_k) into exp (x - M_(k+1)).  After the last chunk the maximum
  is the row's maximum M and the sum is S = sum of exp (x - M) over the whole row, which is positive; the running
  pick is the label's entry.  Both losses are then (log S + M) - x_label.
-/
import proofs.«426176_j20177756356941_3_alg».proof.Proof.Spec
import Mathlib.Data.EReal.Basic
import Mathlib.Data.EReal.Operations
import Mathlib.Analysis.SpecialFunctions.Exp
import Mathlib.Analysis.SpecialFunctions.Log.Basic
import Mathlib.Algebra.BigOperators.Fin
import Mathlib.Algebra.BigOperators.Ring.Finset
import Mathlib.Order.Interval.Finset.Nat

noncomputable section

open scoped BigOperators

namespace Cert.Wnll

open Idealize.ShloMosaic

/-! ## Finite sums and maxima of coerced reals -/

/-- A finite sum of coerced reals is the coercion of the real sum. -/
theorem coe_real_sum {α : Type} (s : Finset α) (f : α → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of a nonempty finite family of coerced reals is a coerced real: an upper bound of the family
    that is attained. -/
theorem famMax_coe {ι : Type} [Fintype ι] [Nonempty ι] (f : ι → ℝ) :
    ∃ m : ℝ, famMax (fun j => ((f j : ℝ) : EReal)) = (m : EReal) ∧ (∀ j, f j ≤ m) ∧ ∃ j, f j = m := by
  have hsup : famMax (fun j => ((f j : ℝ) : EReal)) = Finset.univ.sup (fun j => ((f j : ℝ) : EReal)) := rfl
  refine ⟨Finset.univ.sup' Finset.univ_nonempty f, ?_, ?_, ?_⟩
  · rw [hsup]
    apply le_antisymm
    · apply Finset.sup_le
      intro j _
      exact EReal.coe_le_coe_iff.2 (Finset.le_sup' f (Finset.mem_univ j))
    · obtain ⟨j, _, hj⟩ := Finset.exists_mem_eq_sup' Finset.univ_nonempty f
      rw [hj]
      exact Finset.le_sup (f := fun j => ((f j : ℝ) : EReal)) (Finset.mem_univ j)
  · intro j
    exact Finset.le_sup' f (Finset.mem_univ j)
  · obtain ⟨j, _, hj⟩ := Finset.exists_mem_eq_sup' Finset.univ_nonempty f
    exact ⟨j, hj.symm⟩

/-- The maximum of two coerced reals is the coercion of their maximum. -/
theorem coe_real_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-! ## The walk over the chunks -/

/-- After k >= 1 chunks of real entries, the running maximum is a real M, an attained upper bound of the entries
    seen so far, and the running sum is the real sum of exp (x - M) over those entries. -/
theorem run_pair {ι : Type} [Fintype ι] [Nonempty ι] (c : ℕ → ι → EReal) (a : ℕ → ι → ℝ) (n : ℕ)
    (hc : ∀ k, k < n → ∀ j, c k j = ((a k j : ℝ) : EReal)) :
    ∀ k, 1 ≤ k → k ≤ n → ∃ M : ℝ, runMax c k = (M : EReal) ∧ (∀ k', k' < k → ∀ j, a k' j ≤ M) ∧
      (∃ k', k' < k ∧ ∃ j, a k' j = M) ∧
      runSum c k = ((∑ k' ∈ Finset.range k, ∑ j, Real.exp (a k' j - M) : ℝ) : EReal) := by
  intro k hk
  induction k, hk using Nat.le_induction with
  | base =>
    intro hn
    have hc0 : c 0 = fun j => ((a 0 j : ℝ) : EReal) := funext (hc 0 hn)
    obtain ⟨m, hm, hub, j, hj⟩ := famMax_coe (a 0)
    have hM : runMax c 1 = (m : EReal) := by
      show max (⊥ : EReal) (famMax (c 0)) = (m : EReal)
      rw [hc0, hm]
      exact max_eq_right bot_le
    refine ⟨m, hM, ?_, ⟨0, Nat.zero_lt_one, j, hj⟩, ?_⟩
    · intro k' hk' j'
      have h0 : k' = 0 := by omega
      subst h0
      exact hub j'
    · show (0 : EReal) * Ideal.exp (runMax c 0 - runMax c 1) + ∑ j, Ideal.exp (c 0 j - runMax c 1) = _
      rw [hM, zero_mul, zero_add, Finset.sum_range_one, ← coe_real_sum]
      refine Finset.sum_congr rfl (fun j _ => ?_)
      rw [hc 0 hn j, ← EReal.coe_sub, Ideal.exp_coe]
  | succ k hk ih =>
    intro hkn
    obtain ⟨M, hM, hub, ⟨k0, hk0, j0, hj0⟩, hS⟩ := ih (by omega)
    have hkn' : k < n := by omega
    have hck : c k = fun j => ((a k j : ℝ) : EReal) := funext (hc k hkn')
    obtain ⟨m, hm, hubm, j1, hj1⟩ := famMax_coe (a k)
    have hM' : runMax c (k + 1) = ((max M m : ℝ) : EReal) := by
      show max (runMax c k) (famMax (c k)) = _
      rw [hM, hck, hm, coe_real_max]
    refine ⟨max M m, hM', ?_, ?_, ?_⟩
    · intro k' hk' j'
      rcases Nat.lt_succ_iff_lt_or_eq.1 hk' with h | h
      · exact (hub k' h j').trans (le_max_left _ _)
      · subst h; exact (hubm j').trans (le_max_right _ _)
    · rcases le_total M m with h | h
      · exact ⟨k, Nat.lt_succ_self k, j1, by rw [hj1, max_eq_right h]⟩
      · exact ⟨k0, by omega, j0, by rw [hj0, max_eq_left h]⟩
    · have h2 : ∑ j, Ideal.exp (c k j - ((max M m : ℝ) : EReal))
          = ((∑ j, Real.exp (a k j - max M m) : ℝ) : EReal) := by
        rw [← coe_real_sum]
        refine Finset.sum_congr rfl (fun j _ => ?_)
        rw [hc k hkn' j, ← EReal.coe_sub, Ideal.exp_coe]
      show runSum c k * Ideal.exp (runMax c k - runMax c (k + 1)) + ∑ j, Ideal.exp (c k j - runMax c (k + 1)) = _
      rw [hM', hM, hS, h2, ← EReal.coe_sub, Ideal.exp_coe, ← EReal.coe_mul, ← EReal.coe_add,
        Finset.sum_range_succ, Finset.sum_mul]
      congr 2
      refine Finset.sum_congr rfl (fun k' _ => ?_)
      rw [Finset.sum_mul]
      refine Finset.sum_congr rfl (fun j _ => ?_)
      rw [← Real.exp_add, sub_add_sub_cancel]

/-- The running pick after k chunks of real entries is the real sum of the marked entries seen so far. -/
theorem runPick_coe {ι : Type} [Fintype ι] (c : ℕ → ι → EReal) (hit : ℕ → ι → Prop)
    [∀ k j, Decidable (hit k j)] (a : ℕ → ι → ℝ) (n : ℕ)
    (hc : ∀ k, k < n → ∀ j, c k j = ((a k j : ℝ) : EReal)) :
    ∀ k, k ≤ n → runPick c hit k
      = ((∑ k' ∈ Finset.range k, ∑ j, (if hit k' j then a k' j else 0) : ℝ) : EReal) := by
  intro k
  induction k with
  | zero =>
    intro _
    show (0 : EReal) = _
    rw [Finset.sum_range_zero, EReal.coe_zero]
  | succ k ih =>
    intro hkn
    have hkn' : k < n := by omega
    show runPick c hit k + ∑ j : ι, (if hit k j then c k j else (0 : EReal)) = _
    rw [ih (by omega), Finset.sum_range_succ, EReal.coe_add,
      ← coe_real_sum Finset.univ (fun j => if hit k j then a k j else 0)]
    congr 1
    refine Finset.sum_congr rfl (fun j _ => ?_)
    by_cases h : hit k j
    · rw [if_pos h, if_pos h, hc k hkn' j]
    · rw [if_neg h, if_neg h, EReal.coe_zero]

/-! ## The two losses agree -/

/-- The chunked loss of a row of finite reals, cut into n >= 1 chunks through the bijection e, is the one-pass loss of
    the row: both are (log S + M) - x_label with M the row's maximum and S the sum of exp (x - M). -/
theorem lossOnline_eq_lossDirect {ι κ : Type} [Fintype ι] [Nonempty ι] [Fintype κ] [DecidableEq κ]
    (n : ℕ) (hn : 0 < n) (c : ℕ → ι → EReal) (hit : ℕ → ι → Prop) [∀ k j, Decidable (hit k j)]
    (r : κ → ℝ) (l : κ) (e : Fin n × ι ≃ κ)
    (hc : ∀ (k : Fin n) (j : ι), c k.val j = ((r (e (k, j)) : ℝ) : EReal))
    (hhit : ∀ (k : Fin n) (j : ι), hit k.val j ↔ e (k, j) = l) :
    lossOnline c hit n = lossDirect (fun v => ((r v : ℝ) : EReal)) l := by
  -- the real entries of the chunks
  let a : ℕ → ι → ℝ := fun k j => (c k j).toReal
  have ha : ∀ (k : Fin n) (j : ι), a k.val j = r (e (k, j)) := fun k j => by
    show (c k.val j).toReal = _
    rw [hc k j, EReal.toReal_coe]
  have hca : ∀ k, k < n → ∀ j, c k j = ((a k j : ℝ) : EReal) := fun k hk j => by
    have h2 : c k j = ((r (e (⟨k, hk⟩, j)) : ℝ) : EReal) := hc ⟨k, hk⟩ j
    show c k j = (((c k j).toReal : ℝ) : EReal)
    rw [h2, EReal.toReal_coe]
  haveI : Nonempty κ := ⟨e (⟨0, hn⟩, Classical.arbitrary ι)⟩
  obtain ⟨M, hM, hub, ⟨k0, hk0, j0, hj0⟩, hS⟩ := run_pair c a n hca n hn le_rfl
  obtain ⟨m, hm, hubm, v1, hv1⟩ := famMax_coe r
  -- the walk's maximum is the row's maximum
  have hMm : m = M := by
    apply le_antisymm
    · obtain ⟨⟨k, j⟩, hkj⟩ := e.surjective v1
      rw [← hv1, ← hkj, ← ha k j]
      exact hub k.val k.isLt j
    · have h1 : a k0 j0 = r (e (⟨k0, hk0⟩, j0)) := ha ⟨k0, hk0⟩ j0
      rw [← hj0, h1]
      exact hubm _
  -- the walk's sum is the row's sum of shifted exponentials
  have hsum : (∑ k' ∈ Finset.range n, ∑ j, Real.exp (a k' j - M)) = ∑ v, Real.exp (r v - M) := by
    rw [Finset.sum_range (fun k' => ∑ j, Real.exp (a k' j - M)), ← Equiv.sum_comp e, Fintype.sum_prod_type]
    refine Finset.sum_congr rfl (fun k _ => Finset.sum_congr rfl (fun j _ => ?_))
    rw [ha k j]
  have hSpos : 0 < ∑ v, Real.exp (r v - M) :=
    Finset.sum_pos (fun v _ => Real.exp_pos _) Finset.univ_nonempty
  -- the walk's pick is the label's entry
  have hpick : (∑ k' ∈ Finset.range n, ∑ j, (if hit k' j then a k' j else 0)) = r l := by
    have hterm : ∀ (k : Fin n) (j : ι),
        (if hit k.val j then a k.val j else 0) = (if e (k, j) = l then r (e (k, j)) else 0) := by
      intro k j
      rw [ha k j]
      exact if_congr (hhit k j) rfl rfl
    calc (∑ k' ∈ Finset.range n, ∑ j, (if hit k' j then a k' j else 0))
        = ∑ k : Fin n, ∑ j, (if e (k, j) = l then r (e (k, j)) else 0) := by
          rw [Finset.sum_range (fun k' => ∑ j, (if hit k' j then a k' j else 0))]
          exact Finset.sum_congr rfl (fun k _ => Finset.sum_congr rfl (fun j _ => hterm k j))
      _ = ∑ p : Fin n × ι, (if e p = l then r (e p) else 0) := by
          rw [Fintype.sum_prod_type]
      _ = ∑ v, (if v = l then r v else 0) := Equiv.sum_comp e (fun v => if v = l then r v else 0)
      _ = r l := by rw [Finset.sum_ite_eq' Finset.univ l r, if_pos (Finset.mem_univ l)]
  have hdmax : max (⊥ : EReal) (famMax (fun v => ((r v : ℝ) : EReal))) = (M : EReal) := by
    rw [hm, hMm]
    exact max_eq_right bot_le
  have hdsum : (0 : EReal) + ∑ v, Ideal.exp (((r v : ℝ) : EReal) - (M : EReal))
      = ((∑ v, Real.exp (r v - M) : ℝ) : EReal) := by
    rw [zero_add, ← coe_real_sum]
    refine Finset.sum_congr rfl (fun v _ => ?_)
    rw [← EReal.coe_sub, Ideal.exp_coe]
  have hlog : Ideal.log ((∑ v, Real.exp (r v - M) : ℝ) : EReal)
      = ((Real.log (∑ v, Real.exp (r v - M)) : ℝ) : EReal) := by
    rw [Ideal.log_coe, if_neg (not_le.2 hSpos)]
  show (Ideal.log (runSum c n) + runMax c n) - runPick c hit n
    = -((((r l : ℝ) : EReal) - max (⊥ : EReal) (famMax (fun v => ((r v : ℝ) : EReal))))
        - Ideal.log ((0 : EReal) + ∑ v, Ideal.exp (((r v : ℝ) : EReal)
            - max (⊥ : EReal) (famMax (fun v => ((r v : ℝ) : EReal))))))
  rw [hdmax, hdsum, hlog, hM, hS, hsum, hlog, runPick_coe c hit a n hca n le_rfl, hpick,
    ← EReal.coe_add, ← EReal.coe_sub, ← EReal.coe_sub, ← EReal.coe_sub, ← EReal.coe_neg]
  congr 1
  ring

end Cert.Wnll

end
-- ==== Proof.RowLoss.lean ====
/-
  One row of 32000 finite logits, cut into 10 chunks of 3200 by `(k, j) ↦ 3200 * k + j`: the chunked loss of the row
  with the label's position marked is the one-pass loss at that label.
-/
import proofs.«426176_j20177756356941_3_alg».proof.Proof.Spec
import proofs.«426176_j20177756356941_3_alg».proof.Proof.OnlineSoftmax
import Mathlib.Logic.Equiv.Fin.Basic

noncomputable section

namespace Cert.Wnll

/-- Chunk `k`, lane `j` of the row is entry `3200 * k + j`: a bijection of the 10 x 3200 pairs with the 32000 entries. -/
def chunkEquiv : Fin 10 × Fin 3200 ≃ Fin 32000 where
  toFun p := ⟨3200 * p.1.val + p.2.val, by have := p.1.isLt; have := p.2.isLt; omega⟩
  invFun v := (⟨v.val / 3200, by have := v.isLt; omega⟩, ⟨v.val % 3200, Nat.mod_lt _ (by norm_num)⟩)
  left_inv p := by
    have h1 := p.1.isLt
    have h2 := p.2.isLt
    apply Prod.ext
    · apply Fin.ext
      show (3200 * p.1.val + p.2.val) / 3200 = p.1.val
      omega
    · apply Fin.ext
      show (3200 * p.1.val + p.2.val) % 3200 = p.2.val
      omega
  right_inv v := by
    apply Fin.ext
    show 3200 * (v.val / 3200) + v.val % 3200 = v.val
    omega

theorem chunkEquiv_val (k : Fin 10) (j : Fin 3200) : (chunkEquiv (k, j)).val = 3200 * k.val + j.val := rfl

/-- The chunked loss of a row of finite logits, the label's position marked, is the one-pass loss at the label. -/
theorem lossOnline_row (row : Fin 32000 → EReal) (hrow : ∀ v, ∃ r : ℝ, row v = (r : EReal)) (lab : ℕ) (hlab : lab < 32000) :
    lossOnline (chunkAt row) (hitAt lab) 10 = lossDirect row ⟨lab % 32000, Nat.mod_lt _ (by norm_num)⟩ := by
  choose r hr using hrow
  have hrow' : row = fun v => ((r v : ℝ) : EReal) := funext hr
  rw [hrow']
  refine lossOnline_eq_lossDirect 10 (by norm_num) _ _ r _ chunkEquiv (fun k j => ?_) (fun k j => ?_)
  · have h : 3200 * k.val + j.val < 32000 := by have := k.isLt; have := j.isLt; omega
    unfold chunkAt
    rw [dif_pos h]
    exact congrArg (fun v => ((r v : ℝ) : EReal)) (Fin.ext (chunkEquiv_val k j).symm)
  · unfold hitAt
    rw [Fin.ext_iff, chunkEquiv_val]
    show 3200 * k.val + j.val = lab ↔ 3200 * k.val + j.val = lab % 32000
    rw [Nat.mod_eq_of_lt hlab]

end Cert.Wnll

end
-- ==== Proof.KernelValue.lean ====
/-
  The idealized kernel's result as the weighted mean loss.  After the region the host sums the two cells of the result
  array and divides by the sum of the weights.  Cell `b` holds batch row `b`'s total of tile losses, so the numerator is
  the sum over all 2 x 4096 positions of weight times the chunked loss of that position's row; for finite logits and a
  label in range the chunked loss is the one-pass loss, and the quotient is `Cert.Wnll.G`.
-/
import proofs.«426176_j20177756356941_3_alg».proof.Proof.KernelGrid
import proofs.«426176_j20177756356941_3_alg».proof.Proof.KernelHost
import proofs.«426176_j20177756356941_3_alg».proof.Proof.SumIndex
import proofs.«426176_j20177756356941_3_alg».proof.Proof.RowLoss

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KGrid Cert.KernelIdeal.KHost Cert.Wnll

variable (m : (ℓ : Loc nD τ sig) → Buf (Elt Ideal) ℓ)

/-- The host's sum of a whole array from the zero constant is zero plus the sum of the entries. -/
theorem hostSum_zero {s : Shape} {axes : List (Fin s.rank)} (x : FVec Ideal s .f32) (h' : s.ReducesTo axes S_)
    (hu : 0 < S_.numel) (i : S_.Idx) :
    Host.reduceAdd x (constant (F := Ideal) S_ .f32 0x00000000#32) h' hu i = 0 + ∑ j : s.Idx, x j := by
  simp only [Host.reduceAdd, Ideal.hostReduceAdd_def]
  rw [Ideal.hostReduceAdd_total h' (fun b => b.elim0) x _ i]
  exact congrArg (fun z => z + ∑ j : s.Idx, x j) Ideal.ofBits_zero_f32

/-- One position's weighted chunked loss is its weight times the one-pass loss, for finite logits and labels in range. -/
theorem posLoss_eq (c : Dev nD)
    (hfin : ∀ i, ∃ r : ℝ, m ((c : Thread nD τ).loc main_arg0) i = (r : EReal))
    (hlab : ∀ i, (m ((c : Thread nD τ).loc main_arg1) i).toNat < 32000) (b : Fin 2) (s : Fin 4096) :
    posLoss m c b s
      = weights (m ((c : Thread nD τ).loc main_arg1)) (ix2 b s)
        * nllAt (m ((c : Thread nD τ).loc main_arg0)) (m ((c : Thread nD τ).loc main_arg1)) (ix2 b s) := by
  unfold posLoss nllAt xArr lArr wArr
  rw [V_main_arg0 m c, V_main_v45 m c, V_main_v46 m c, reshape_apply, reshape_apply]
  exact congrArg (fun z => weights (m ((c : Thread nD τ).loc main_arg1)) (ix2 b s) * z)
    (lossOnline_row (fun v => m ((c : Thread nD τ).loc main_arg0) (ix3 b s v)) (fun v => hfin _) _ (hlab _))

/-- A rank-0 buffer holding one extended real. -/
def scalarBuf (x : EReal) : FVec Ideal S_ .f32 := fun _ => x

/-- The host's closing quotient of two whole-array sums, as a rank-0 buffer. -/
theorem quotient_eq (A : FVec Ideal S2x1x1 .f32) (W : FVec Ideal S2x4096 .f32) (g : EReal)
    (h : Ideal.div (0 + ∑ j : S2x1x1.Idx, A j) (0 + ∑ i : S2x4096.Idx, W i) = g) :
    Host.divf (Host.reduceAdd A (constant (F := Ideal) S_ .f32 0x00000000#32) reducesTo_S2x1x1_S_d0_1_2 h_S_)
        (Host.reduceAdd W (constant (F := Ideal) S_ .f32 0x00000000#32) reducesTo_S2x4096_S_d0_1 h_S_)
      = scalarBuf g := by
  funext j
  unfold scalarBuf
  show Ideal.div
      (Host.reduceAdd A (constant (F := Ideal) S_ .f32 0x00000000#32) reducesTo_S2x1x1_S_d0_1_2 h_S_ j)
      (Host.reduceAdd W (constant (F := Ideal) S_ .f32 0x00000000#32) reducesTo_S2x4096_S_d0_1 h_S_ j) = g
  rw [hostSum_zero, hostSum_zero]
  exact h

/-- The sum of the result array's two cells is the sum over all positions of weight times one-pass loss. -/
theorem cells_sum (c : Dev nD)
    (hfin : ∀ i, ∃ r : ℝ, m ((c : Thread nD τ).loc main_arg0) i = (r : EReal))
    (hlab : ∀ i, (m ((c : Thread nD τ).loc main_arg1) i).toNat < 32000) :
    (∑ j : S2x1x1.Idx, outArr m c j)
      = ∑ i : (⟨2, ![2, 4096]⟩ : Shape).Idx, weights (m ((c : Thread nD τ).loc main_arg1)) i
          * nllAt (m ((c : Thread nD τ).loc main_arg0)) (m ((c : Thread nD τ).loc main_arg1)) i := by
  rw [sum_cells, sum_positions]
  refine Finset.sum_congr rfl fun b _ => ?_
  show rowTotalN m c b.val = _
  unfold rowTotalN
  rw [dif_pos b.isLt]
  unfold rowTotal
  rw [Finset.sum_range]
  refine Finset.sum_congr rfl fun t _ => ?_
  unfold tileLossN
  rw [dif_pos t.isLt]
  unfold tileLoss
  refine Finset.sum_congr rfl fun r _ => ?_
  exact posLoss_eq m c hfin hlab b (seqPos t r)

/-- The kernel's result buffer after the run is the weighted mean loss of its arguments. -/
theorem kernel_value (c : Dev nD)
    (hfin : ∀ i, ∃ r : ℝ, m ((c : Thread nD τ).loc main_arg0) i = (r : EReal))
    (hlab : ∀ i, (m ((c : Thread nD τ).loc main_arg1) i).toNat < 32000) :
    Pipeline.afterTail₀ cfgs (dats m) 0 (V0 m) [hostOps1] c main_v50
      = scalarBuf (G (m ((c : Thread nD τ).loc main_arg0)) (m ((c : Thread nD τ).loc main_arg1))
          (weights (m ((c : Thread nD τ).loc main_arg1)))) :=
  (tail_main_v50 m c (outArr m c) (final_out m c)).trans
    (quotient_eq (outArr m c) (weights (m ((c : Thread nD τ).loc main_arg1))) _
      (by unfold G; rw [cells_sum m c hfin hlab]))

end Cert.KernelIdeal.KValue

end
-- ==== Proof.RefValue.lean ====
/-
  The reference's result as the weighted mean loss `Cert.Wnll.G` of its arguments.

  The reference computes, for each position `(b, s)`, the log-softmax of the row of logits, picks its value at the
  position's label, negates it, and returns the mean of these losses weighted by weights that depend on the labels
  only.  Read one element at a time this is: the row's maximum `M = max ⊥ (largest logit)`, the shifted logits
  `x - M`, the sum `S = 0 + ∑ exp (x - M)`, the log-softmax `(x - M) - log S`; the label word, which for a label
  below the number of classes is not negative, so that wrapping it leaves it, the range test passes, and the gather
  reads the row at the label itself; then `w * -(log-softmax at the label)`, summed, over the sum of the weights.
  That is `Cert.Wnll.G` with the reference's own weights.
-/
import proofs.«426176_j20177756356941_3_alg».proof.Proof.RefStages
import proofs.«426176_j20177756356941_3_alg».proof.Proof.Spec
import Idealize.ShloMosaic.Lib.ValueIdx
import Idealize.ShloMosaic.PureOps.Reduce
import Idealize.ShloMosaic.PureOps.Ideal.Laws
import Idealize.ShloMosaic.Lib.StableHlo.Predicate

noncomputable section

open scoped BigOperators

namespace Cert.ReferenceIdeal.RefValue

open Idealize.ShloMosaic Idealize.ShloMosaic.ValueIdx Cert.ReferenceIdeal Cert.ReferenceIdeal.Gen Cert.ReferenceIdeal.Read

/-! ## The three operations the stage-by-stage reading leaves: the maximum over a row, the `and` over a unit axis, the gather -/

/-- Dropping the class axis of the logits' shape leaves the positions' shape. -/
theorem reduces_d2 : S2x4096x32000.Reduces [2] S2x4096 := by decide

/-- Position `(b, s)` with class `k` put back on the dropped axis is `(b, s, k)`. -/
theorem lift_d2 (b : Fin 2) (s : Fin 4096) (k : Fin (S2x4096x32000.size 2)) :
    reduces_d2.lift (ix2 b s) k = ix3 b s (⟨k.val, k.isLt⟩ : Fin 32000) := by
  funext c; apply Fin.ext
  match c with
  | ⟨0, _⟩ => rfl
  | ⟨1, _⟩ => rfl
  | ⟨2, _⟩ => rfl

/-- The word of minus infinity is the bottom of the extended reals. -/
theorem ofBits_neg_inf : Ideal.ofBits .f32 0xFF800000#32 = (⊥ : EReal) := by
  simp [Ideal.ofBits, Ideal.ieee]

/-- The reduction by `maximum` from minus infinity over the classes, at position `(b, s)`, is the largest logit of
    that row. -/
theorem rowMax_eq (x : FVec Ideal S2x4096x32000 .f32) (b : Fin 2) (s : Fin 4096) :
    Host.reduce FloatOps.maximumf x (constant (F := Ideal) S_ .f32 0xFF800000#32) reducesTo_S2x4096x32000_S2x4096_d2 h_S_ (ix2 b s)
      = Cert.Wnll.famMax (Cert.Wnll.rowOf x b s) := by
  have h1 := Host.reduce_eq_fold_single FloatOps.maximumf x (constant (F := Ideal) S_ .f32 0xFF800000#32)
    reducesTo_S2x4096x32000_S2x4096_d2 reduces_d2 h_S_ (ix2 b s)
  refine h1.trans ?_
  have hf : (x ∘ reduces_d2.lift (ix2 b s)) = fun k : Fin 32000 => Cert.Wnll.rowOf x b s k :=
    funext fun k => congrArg x (lift_d2 b s k)
  have hb : (constant (F := Ideal) S_ .f32 0xFF800000#32) (Shape.Idx.first h_S_) = (⊥ : EReal) := ofBits_neg_inf
  rw [hb]
  exact congrArg (fun f => Finset.fold max (⊥ : EReal) f (Finset.univ : Finset (Fin 32000))) hf

/-- Dropping the last axis of the label words' shape leaves the gathered positions' shape. -/
theorem reduces_d3 : S2x4096x1x1.Reduces [3] S2x4096x1 := by decide

/-- A fold of `and` from one over ones is one. -/
theorem fold_andi_ones {ι : Type} [DecidableEq ι] (S : Finset ι) :
    S.fold IntOp.andi 1#1 (fun _ => (1#1 : BitVec 1)) = 1#1 := by
  induction S using Finset.induction_on with
  | empty => rfl
  | insert a s ha ih => rw [Finset.fold_insert ha, ih]; rfl

/-- A mask of ones reduced by `and` from one is one everywhere. -/
theorem maskAll_eq (p : IVec S2x4096x1x1 1) (hp : ∀ m, p m = 1#1) (k : S2x4096x1.Idx) :
    Host.reduce IntOp.andi p (constantI S_ 1 1#1) reducesTo_S2x4096x1x1_S2x4096x1_d3 h_S_ k = 1#1 := by
  have h1 := Host.reduce_eq_fold_single IntOp.andi p (constantI S_ 1 1#1) reducesTo_S2x4096x1x1_S2x4096x1_d3 reduces_d3 h_S_ k
  refine h1.trans ?_
  have hf : (p ∘ reduces_d3.lift k) = fun _ => (1#1 : BitVec 1) := funext fun m => hp _
  rw [hf]
  exact fold_andi_ones _

/-- The gather's dimension numbers: batch axes 0 and 1, the class axis collapsed and indexed. -/
abbrev gd := gather_S2x4096x32000_S2x4096x1x1_S2x4096x1_n_2_01_01_2_3_111

/-- The gather read at `(b, s, z)`: the operand at `(b, s, c)`, where `c` is the start index at `(b, s, z, 0)` read
    signed and clamped into the row. -/
theorem gather_apply {α : Type} (y : S2x4096x32000.Idx → α) (idx : IVec S2x4096x1x1 32) (b : Fin 2) (s : Fin 4096) (z : Fin 1) :
    Host.gather gd y idx (ix3 b s z)
      = y (ix3 b s (⟨min (idx (ix4 b s z (0 : Fin 1))).toInt.toNat 31999, by omega⟩ : Fin 32000)) := by
  unfold Host.gather
  congr 1
  funext a
  refine Fin.ext ?_
  match a with
  | ⟨0, _⟩ =>
    show gd.start (ix3 b s z) idx 0 + gd.batchCoord (ix3 b s z) 0 + gd.offCoord (ix3 b s z) 0 = b.val
    rw [GatherDims.start_batching _ _ _ _ (by decide), GatherDims.offCoord_eq_zero _ _ _ (by decide), Nat.zero_add, Nat.add_zero]
    rfl
  | ⟨1, _⟩ =>
    show gd.start (ix3 b s z) idx 1 + gd.batchCoord (ix3 b s z) 1 + gd.offCoord (ix3 b s z) 1 = s.val
    rw [GatherDims.start_batching _ _ _ _ (by decide), GatherDims.offCoord_eq_zero _ _ _ (by decide), Nat.zero_add, Nat.add_zero]
    rfl
  | ⟨2, _⟩ =>
    show gd.start (ix3 b s z) idx 2 + gd.batchCoord (ix3 b s z) 2 + gd.offCoord (ix3 b s z) 2
      = min (idx (ix4 b s z (0 : Fin 1))).toInt.toNat 31999
    rw [GatherDims.batchCoord_eq_zero _ _ _ (by decide), GatherDims.offCoord_eq_zero _ _ _ (by decide), Nat.add_zero]
    unfold GatherDims.start
    rw [dif_pos (show (2 : Fin 3) ∈ gd.startIndexMap by decide)]
    have hsi : gd.siIdx (ix3 b s z) ⟨List.idxOf (2 : Fin 3) gd.startIndexMap, List.idxOf_lt_length_iff.2 (by decide)⟩
        = ix4 b s z (0 : Fin 1) := by
      funext c; refine Fin.ext ?_
      match c with
      | ⟨0, _⟩ => rfl
      | ⟨1, _⟩ => rfl
      | ⟨2, _⟩ => rfl
      | ⟨3, _⟩ => rfl
    rw [hsi]
    rfl

/-! ## Words: a label below 32000 is a small non-negative word -/

/-- It is not negative … -/
theorem word_slt_zero {l : BitVec 32} (h : l.toNat < 32000) : IntOp.cmpi .slt l 0#32 = 0#1 := by
  refine eq_zero_of_ne_one fun e => ?_
  have := (StableHlo.Predicate.slt_iff_toNat (a := l) (b := 0#32) (by omega) (by decide)).1 e
  simp at this

/-- … it is at least zero … -/
theorem word_sge_zero {l : BitVec 32} (h : l.toNat < 32000) : IntOp.cmpi .sge l 0#32 = 1#1 :=
  (StableHlo.Predicate.sge_iff_toNat (a := l) (b := 0#32) (by omega) (by decide)).2 (Nat.zero_le _)

/-- … it is at most the last class … -/
theorem word_sle_top {l : BitVec 32} (h : l.toNat < 32000) : IntOp.cmpi .sle l 31999#32 = 1#1 :=
  (StableHlo.Predicate.sle_iff_toNat (a := l) (b := 31999#32) (by omega) (by decide)).2
    (by show l.toNat ≤ 31999; omega)

/-- … and read signed and clamped into the row it is itself. -/
theorem word_clamp {l : BitVec 32} (h : l.toNat < 32000) : min l.toInt.toNat 31999 = l.toNat := by
  rw [StableHlo.Predicate.toInt_eq_toNat_of_lt (by omega), Int.toNat_natCast]
  omega

/-! ## The log-softmax, stage by stage -/

section Stages

variable (X : (⟨S2x4096x32000, .f32⟩ : BufTy).Contents (Elt Ideal)) (Lb : (⟨S2x4096, .i32⟩ : BufTy).Contents (Elt Ideal))

/-- The row's maximum as the reference takes it: the larger of minus infinity and the largest logit. -/
theorem max_apply (b : Fin 2) (s : Fin 4096) :
    val_main_call1_v2 (F := Ideal) X (ix2 b s) = max ⊥ (Cert.Wnll.famMax (Cert.Wnll.rowOf X b s)) := by
  have h0 : val_main_call1_v0 (F := Ideal) X (ix2 b s) = Cert.Wnll.famMax (Cert.Wnll.rowOf X b s) := rowMax_eq X b s
  rw [val_main_call1_v2_apply, val_main_call1_v1_apply, val_main_call1_cst_0_apply, h0]
  show max (Ideal.ofBits .f32 0xFF800000#32) _ = _
  rw [ofBits_neg_inf]

/-- The shifted logit at `(b, s, v)`. -/
theorem shifted_apply (b : Fin 2) (s : Fin 4096) (v : Fin 32000) :
    val_main_call1_v5 (F := Ideal) X (ix3 b s v)
      = Cert.Wnll.rowOf X b s v - max ⊥ (Cert.Wnll.famMax (Cert.Wnll.rowOf X b s)) := by
  have hidx : idx_main_call1_v3 (idx_main_call1_v4 (ix3 b s v)) = ix2 b s := by
    funext a
    match a with
    | ⟨0, _⟩ => rfl
    | ⟨1, _⟩ => rfl
  rw [val_main_call1_v5_apply, val_main_call1_v4_apply, val_main_call1_v3_apply, hidx, max_apply]
  rfl

/-- The sum of the shifted exponentials of row `(b, s)`. -/
theorem sumexp_apply (b : Fin 2) (s : Fin 4096) :
    val_main_call1_v7 (F := Ideal) X (ix2 b s)
      = 0 + ∑ v : Fin 32000, Ideal.exp (Cert.Wnll.rowOf X b s v - max ⊥ (Cert.Wnll.famMax (Cert.Wnll.rowOf X b s))) := by
  have hz : (val_main_call1_cst_1 (F := Ideal)) (Shape.Idx.first h_S_) = (0 : EReal) := Ideal.ofBits_zero_f32
  rw [val_main_call1_v7_apply, hz]
  refine congrArg (fun t : EReal => 0 + t) (Finset.sum_congr rfl fun v _ => ?_)
  have hidx : idx_main_call1_v7 (ix2 b s) v = ix3 b s v := by
    funext a
    match a with
    | ⟨0, _⟩ => rfl
    | ⟨1, _⟩ => rfl
    | ⟨2, _⟩ => rfl
  rw [hidx, val_main_call1_v6_apply, shifted_apply]
  rfl

/-- The log-softmax at `(b, s, v)`. -/
theorem logp_apply (b : Fin 2) (s : Fin 4096) (v : Fin 32000) :
    val_main_v45 (F := Ideal) X (ix3 b s v)
      = (Cert.Wnll.rowOf X b s v - max ⊥ (Cert.Wnll.famMax (Cert.Wnll.rowOf X b s)))
          - Ideal.log (0 + ∑ u : Fin 32000, Ideal.exp (Cert.Wnll.rowOf X b s u - max ⊥ (Cert.Wnll.famMax (Cert.Wnll.rowOf X b s)))) := by
  have hidx : idx_main_call1_v8 (idx_main_call1_v10 (ix3 b s v)) = ix2 b s := by
    funext a
    match a with
    | ⟨0, _⟩ => rfl
    | ⟨1, _⟩ => rfl
  rw [val_main_v45_apply, val_main_call1_v10_apply, val_main_call1_v9_apply, val_main_call1_v8_apply, hidx,
    sumexp_apply, shifted_apply, Ideal.subf_def, Ideal.hostUnary_log_def]

/-! ## The label: wrapped, tested, gathered -/

variable (hlab : ∀ i, (Lb i).toNat < 32000)
include hlab

/-- The wrapped and reshaped label word at `(b, s, z, w)` is the label at `(b, s)`: a label in range is not negative,
    so the wrap leaves it. -/
theorem label_apply (b : Fin 2) (s : Fin 4096) (z w : Fin 1) :
    val_main_call2_v5 (F := Ideal) Lb (ix4 b s z w) = Lb (ix2 b s) := by
  have hb := b.isLt
  have hs := s.isLt
  have hz := z.isLt
  have hw := w.isLt
  have hidx : idx_main_v46 (idx_main_call2_v5 (ix4 b s z w)) = ix2 b s := by
    funext a
    match a with
    | ⟨0, _⟩ => exact Fin.ext (by show (((b.val * 4096 + s.val) * 1 + z.val) * 1 + w.val) / 4096 = b.val; omega)
    | ⟨1, _⟩ => exact Fin.ext (by show (((b.val * 4096 + s.val) * 1 + z.val) * 1 + w.val) / 1 % 4096 = s.val; omega)
  rw [val_main_call2_v5_apply, val_main_call2_v4_apply, val_main_call2_v1_apply, val_main_call2_v0_apply, val_main_call2_c_apply,
    val_main_v46_apply, hidx, word_slt_zero (hlab _), select_zero]

/-- The range test passes everywhere. -/
theorem mask_apply (k : S2x4096x1.Idx) : val_main_call2_v12 (F := Ideal) Lb k = 1#1 := by
  refine maskAll_eq (val_main_call2_v11 (F := Ideal) Lb) (fun m => ?_) k
  obtain ⟨b, s, z, w, rfl⟩ : ∃ (b : Fin 2) (s : Fin 4096) (z w : Fin 1), m = ix4 b s z w := ⟨m 0, m 1, m 2, m 3, eq_ix4 m⟩
  rw [val_main_call2_v11_apply, val_main_call2_v7_apply, val_main_call2_v10_apply, val_main_call2_v6_apply, val_main_call2_c_2_apply,
    val_main_call2_v9_apply, val_main_call2_v8_apply, val_main_call2_c_1_apply, label_apply Lb hlab,
    word_sge_zero (hlab _), word_sle_top (hlab _)]
  rfl

/-- The gathered value at `(b, s, z)` is the log-softmax at the label. -/
theorem gathered_apply (b : Fin 2) (s : Fin 4096) (z : Fin 1) :
    val_main_call2_v13 (F := Ideal) X Lb (ix3 b s z)
      = val_main_v45 (F := Ideal) X (ix3 b s (⟨(Lb (ix2 b s)).toNat, hlab _⟩ : Fin 32000)) := by
  unfold val_main_call2_v13
  refine (gather_apply (val_main_v45 (F := Ideal) X) (val_main_call2_v5 (F := Ideal) Lb) b s z).trans ?_
  refine congrArg (fun c : Fin 32000 => val_main_v45 (F := Ideal) X (ix3 b s c)) (Fin.ext ?_)
  show min (val_main_call2_v5 (F := Ideal) Lb (ix4 b s z (0 : Fin 1))).toInt.toNat 31999 = (Lb (ix2 b s)).toNat
  rw [label_apply Lb hlab, word_clamp (hlab _)]

/-- The negated gathered value at `(b, s)` is the loss there. -/
theorem nll_apply (b : Fin 2) (s : Fin 4096) :
    val_main_v49 (F := Ideal) X Lb (ix2 b s) = Cert.Wnll.nllAt X Lb (ix2 b s) := by
  have hb := b.isLt
  have hs := s.isLt
  have hidx : idx_main_v48 (ix2 b s) = ix3 b s (0 : Fin 1) := by
    funext a
    match a with
    | ⟨0, _⟩ => exact Fin.ext (by show (b.val * 4096 + s.val) / 4096 = b.val; omega)
    | ⟨1, _⟩ => exact Fin.ext (by show (b.val * 4096 + s.val) / 1 % 4096 = s.val; omega)
    | ⟨2, _⟩ => rfl
  have hl : (⟨(Lb (ix2 b s)).toNat, hlab _⟩ : Fin 32000) = Cert.Wnll.labOf Lb b s :=
    Fin.ext (Nat.mod_eq_of_lt (hlab _)).symm
  rw [val_main_v49_apply, val_main_v48_apply, hidx, val_main_v47_apply, mask_apply Lb hlab, select_one,
    gathered_apply X Lb hlab, logp_apply, hl]
  rfl

/-- THE REFERENCE'S RESULT: the weighted mean loss of its two arguments, the weights the reference's own. -/
theorem result_eq :
    val_main_v53 (F := Ideal) X Lb = fun _ => Cert.Wnll.G X Lb (val_main_v44 (F := Ideal) Lb) := by
  funext i
  have hz13 : (val_main_cst_13 (F := Ideal)) (Shape.Idx.first h_S_) = (0 : EReal) := Ideal.ofBits_zero_f32
  have hz14 : (val_main_cst_14 (F := Ideal)) (Shape.Idx.first h_S_) = (0 : EReal) := Ideal.ofBits_zero_f32
  have hs : ∑ j : S2x4096.Idx, val_main_v50 (F := Ideal) X Lb j
      = ∑ j : S2x4096.Idx, val_main_v44 (F := Ideal) Lb j * Cert.Wnll.nllAt X Lb j :=
    Finset.sum_congr rfl fun j _ => by
      obtain ⟨b, s, rfl⟩ : ∃ (b : Fin 2) (s : Fin 4096), j = ix2 b s := ⟨j 0, j 1, eq_ix2 j⟩
      rw [val_main_v50_apply, nll_apply X Lb hlab, Ideal.mulf_def]
  rw [val_main_v53_apply, val_main_v51_apply, val_main_v52_apply, hz13, hz14, hs, Ideal.hostDivf_def]
  rfl

end Stages

end Cert.ReferenceIdeal.RefValue

end
-- ==== Proof.RefRunHand.lean ====
/- The run of the reference program, in four stretches.

   @main is a straight line of 108 tensor operations. What one buffer holds after the line is the fold of the
   operations' results over the launch contents; here that fold is computed stretch by stretch rather than in one
   step. Each stretch is run from arbitrary contents and its result stated over the stage values `val_<buffer>`
   (one definition per operation, each the operation's function applied to its operands' stage values), so a
   stretch's statement never carries the composed term of an earlier stretch. The four are then put in a row: the
   facts a stretch needs of the contents it starts from are exactly the facts the stretches before it end with. -/
import proofs.«426176_j20177756356941_3_alg».proof.Proof.RefOps
import proofs.«426176_j20177756356941_3_alg».proof.Proof.RefStages
import Idealize.ShloMosaic.Lib.StableHlo.Run

noncomputable section

namespace Cert.ReferenceIdeal.HandRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- The contents after two lines run in a row: the second line's, from the contents the first leaves. -/
theorem after_app (l₁ l₂ : List (HloOp τ sig (Elt F))) (V : Valuation τ sig (Elt F)) :
    after (l₁ ++ l₂) V = after l₂ (after l₁ V) := by
  induction l₁ generalizing V with
  | nil => simp only [List.nil_append, after_nil]
  | cons op l ih => simp only [List.cons_append, after_cons, ih]

/-! ## The four stretches of @main

@main's 108 operations fall into four stretches, each reading few values of the ones before it:
the weights (from the labels alone), the log-softmax of the logits, the log-probability taken at
each label, and the weighted mean. Each stretch is run from ARBITRARY contents "W", so that no
stretch's statement carries the terms of the stretches before it. -/

/-- Operations 0–61: the weights, from the labels alone. -/
def ops1 : List (HloOp τ sig (Elt F)) := (ops (F := F)).take 62
/-- Operations 62–77: the log-softmax of the logits, and the labels with a trailing unit axis. -/
def ops2 : List (HloOp τ sig (Elt F)) := ((ops (F := F)).drop 62).take 16
/-- Operations 78–99: the log-probability taken at each label. -/
def ops3 : List (HloOp τ sig (Elt F)) := (((ops (F := F)).drop 62).drop 16).take 22
/-- Operations 100–107: the weighted sum of the negated log-probabilities over the sum of the weights. -/
def ops4 : List (HloOp τ sig (Elt F)) := (((ops (F := F)).drop 62).drop 16).drop 22

theorem ops_eq : ops (F := F) = ops1 ++ (ops2 ++ (ops3 ++ ops4)) := by
  simp only [ops1, ops2, ops3, ops4, List.take_append_drop]

/-- Contents moved to a typed reference's buffer type and back are the contents: the two transports are along one
    equation and its inverse. -/
theorem ofBuf_toBuf {T : BufTy} (x : TRef sig T) (v : T.Contents (Elt F)) : x.ofBuf (x.toBuf v) = v := by
  obtain ⟨r, h, _, _⟩ := x
  subst h
  rfl

/-- No operation of @main allocates: each determines its results. -/
theorem ops_fresh : ∀ op ∈ ops (F := F), op.fresh = ∅ :=
  List.forall_iff_forall_mem.mp (by simp only [ops, List.Forall]; repeat' constructor)

/-- Stretch 1: the weights are the stage value of the labels found; the arguments stay. -/
theorem stretch1 (W : Valuation τ sig (Elt F)) :
    after ops1 W (Proc.devRef .tc main_v44) = val_main_v44 (F := F) (W (Proc.devRef .tc main_arg1))
    ∧ after ops1 W (Proc.devRef .tc main_arg0) = W (Proc.devRef .tc main_arg0)
    ∧ after ops1 W (Proc.devRef .tc main_arg1) = W (Proc.devRef .tc main_arg1) := by
  simp only [ops1, ops, List.take_succ_cons, List.take_zero]
  refine ⟨?_, ?_, ?_⟩
  · after_results_simp
    simp only [TRef.ofBuf, TRef.toBuf, cast_eq]
    rfl
  · after_results_simp
  · after_results_simp

/-- Stretch 2: the log-softmax of the logits found and the labels found with a trailing unit axis; the weights and
    the arguments stay. -/
theorem stretch2 (W : Valuation τ sig (Elt F)) :
    after ops2 W (Proc.devRef .tc main_v45) = val_main_v45 (F := F) (W (Proc.devRef .tc main_arg0))
    ∧ after ops2 W (Proc.devRef .tc main_v46) = val_main_v46 (F := F) (W (Proc.devRef .tc main_arg1))
    ∧ after ops2 W (Proc.devRef .tc main_v44) = W (Proc.devRef .tc main_v44)
    ∧ after ops2 W (Proc.devRef .tc main_arg0) = W (Proc.devRef .tc main_arg0)
    ∧ after ops2 W (Proc.devRef .tc main_arg1) = W (Proc.devRef .tc main_arg1) := by
  simp only [ops2, ops, List.drop_succ_cons, List.drop_zero, List.take_succ_cons, List.take_zero]
  refine ⟨?_, ?_, ?_, ?_, ?_⟩
  · after_results_simp
    simp only [ofBuf_toBuf]
    rfl
  · after_results_simp
    rfl
  · after_results_simp
  · after_results_simp
  · after_results_simp

/-- Stretch 3, from any contents holding the log-softmax and the reshaped labels of some arguments: the log-probability
    at each label; the weights and the arguments stay. -/
theorem stretch3 (W : Valuation τ sig (Elt F)) (x0 : (⟨S2x4096x32000, .f32⟩ : BufTy).Contents (Elt F)) (x1 : (⟨S2x4096, .i32⟩ : BufTy).Contents (Elt F))
    (h45 : W (Proc.devRef .tc main_v45) = val_main_v45 (F := F) x0)
    (h46 : W (Proc.devRef .tc main_v46) = val_main_v46 (F := F) x1) :
    after ops3 W (Proc.devRef .tc main_v47) = val_main_v47 (F := F) x0 x1
    ∧ after ops3 W (Proc.devRef .tc main_v44) = W (Proc.devRef .tc main_v44)
    ∧ after ops3 W (Proc.devRef .tc main_arg0) = W (Proc.devRef .tc main_arg0)
    ∧ after ops3 W (Proc.devRef .tc main_arg1) = W (Proc.devRef .tc main_arg1) := by
  simp only [ops3, ops, List.drop_succ_cons, List.drop_zero, List.take_succ_cons, List.take_zero]
  refine ⟨?_, ?_, ?_, ?_⟩
  · after_results_simp
    simp only [ofBuf_toBuf]
    rw [h45, h46]
    rfl
  · after_results_simp
  · after_results_simp
  · after_results_simp

/-- Stretch 4, from any contents holding the gathered log-probabilities and the weights of some arguments: the
    weighted mean; the arguments stay. -/
theorem stretch4 (W : Valuation τ sig (Elt F)) (x0 : (⟨S2x4096x32000, .f32⟩ : BufTy).Contents (Elt F)) (x1 : (⟨S2x4096, .i32⟩ : BufTy).Contents (Elt F))
    (h47 : W (Proc.devRef .tc main_v47) = val_main_v47 (F := F) x0 x1)
    (h44 : W (Proc.devRef .tc main_v44) = val_main_v44 (F := F) x1) :
    after ops4 W (Proc.devRef .tc main_v53) = val_main_v53 (F := F) x0 x1
    ∧ after ops4 W (Proc.devRef .tc main_arg0) = W (Proc.devRef .tc main_arg0)
    ∧ after ops4 W (Proc.devRef .tc main_arg1) = W (Proc.devRef .tc main_arg1) := by
  simp only [ops4, ops, List.drop_succ_cons, List.drop_zero]
  refine ⟨?_, ?_, ?_⟩
  · after_results_simp
    rw [h47, h44]
    rfl
  · after_results_simp
  · after_results_simp

/-! ## The four stretches in a row -/

/-- @main from any contents "V": the result is the last stage's value of the two arguments found, and the arguments
    stay. Each stretch's facts about the contents it starts from are the facts the stretches before it end with. -/
theorem after_ops (V : Valuation τ sig (Elt F)) :
    after ops V (Proc.devRef .tc main_v53) = val_main_v53 (F := F) (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  rw [ops_eq, after_app, after_app, after_app]
  obtain ⟨a44, a0, a1⟩ := stretch1 V
  obtain ⟨b45, b46, b44, b0, b1⟩ := stretch2 (after ops1 V)
  rw [a0] at b45
  rw [a1] at b46
  obtain ⟨c47, c44, c0, c1⟩ := stretch3 (after ops2 (after ops1 V)) _ _ b45 b46
  have h44 := (c44.trans b44).trans a44
  obtain ⟨d53, d0, d1⟩ := stretch4 (after ops3 (after ops2 (after ops1 V))) _ _ c47 h44
  exact ⟨d53, ((d0.trans c0).trans b0).trans a0, ((d1.trans c1).trans b1).trans a1⟩

/-- On every device, for any float values, from any memory with zero counters: every weakly fair execution of @main
    terminates with the result buffer at the last stage's value of the arguments' launch contents, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = val_main_v53 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have key := after_ops (F := F) (launchContents m c)
      ⟨(h c main_v53).trans key.1, (h c main_arg0).trans key.2.1, (h c main_arg1).trans key.2.2⟩)
    (run_seq scopedRefs_eq scopedSems_eq defs main (fun _ => ops) main_eq (fun _ => ops_sub) m ρ (fun _ => ops_fresh))

end Cert.ReferenceIdeal.HandRun

end
-- ==== Proof.WeightsEq.lean ====
/- The weights of the kernel program and of the reference are one function of the labels: the two programs apply the
   same host operations to the labels, stage by stage — the run tests, the five scatters that mark the runs'
   positions, the selection of 2 or 1 — and differ only in which program's shape names and shape facts they cite. -/
import proofs.«426176_j20177756356941_3_alg».proof.Proof.KernelHost
import proofs.«426176_j20177756356941_3_alg».proof.Proof.RefStages

set_option maxRecDepth 16384

noncomputable section

namespace Cert.KernelIdeal.KHost

open Idealize.ShloMosaic Idealize.SL.Sem

section Stages

variable {F : FTy → Type} [FloatOps F]

/-- The all-false mask. -/
theorem mask0_eq_ref : mask0 (F := F) = Cert.ReferenceIdeal.Read.val_main_v0 (F := F) := rfl

/-- The test for a run 11, 22, 33. -/
theorem run3_eq_ref (Lb : (⟨Cert.KernelIdeal.S2x4096, .i32⟩ : BufTy).Contents (Elt F)) :
    run3 Lb = Cert.ReferenceIdeal.Read.val_main_v13 (F := F) Lb := rfl

/-- The mask after the first scatter, -/
theorem mark3a_eq_ref (Lb : (⟨Cert.KernelIdeal.S2x4096, .i32⟩ : BufTy).Contents (Elt F)) :
    mark3a Lb = Cert.ReferenceIdeal.Read.val_main_v17 (F := F) Lb := rfl

/-- the second, -/
theorem mark3b_eq_ref (Lb : (⟨Cert.KernelIdeal.S2x4096, .i32⟩ : BufTy).Contents (Elt F)) :
    mark3b Lb = Cert.ReferenceIdeal.Read.val_main_v21 (F := F) Lb := rfl

/-- the third. -/
theorem mark3c_eq_ref (Lb : (⟨Cert.KernelIdeal.S2x4096, .i32⟩ : BufTy).Contents (Elt F)) :
    mark3c Lb = Cert.ReferenceIdeal.Read.val_main_v25 (F := F) Lb := rfl

/-- The test for a run 44, 55. -/
theorem run2_eq_ref (Lb : (⟨Cert.KernelIdeal.S2x4096, .i32⟩ : BufTy).Contents (Elt F)) :
    run2 Lb = Cert.ReferenceIdeal.Read.val_main_v34 (F := F) Lb := rfl

/-- The mask after the fourth scatter, -/
theorem mark2a_eq_ref (Lb : (⟨Cert.KernelIdeal.S2x4096, .i32⟩ : BufTy).Contents (Elt F)) :
    mark2a Lb = Cert.ReferenceIdeal.Read.val_main_v38 (F := F) Lb := rfl

/-- and the fifth: the whole mask. -/
theorem mark2b_eq_ref (Lb : (⟨Cert.KernelIdeal.S2x4096, .i32⟩ : BufTy).Contents (Elt F)) :
    mark2b Lb = Cert.ReferenceIdeal.Read.val_main_v42 (F := F) Lb := rfl

/-- The weights, at any float model. -/
theorem weights_eq_ref_any (Lb : (⟨Cert.KernelIdeal.S2x4096, .i32⟩ : BufTy).Contents (Elt F)) :
    weights Lb = Cert.ReferenceIdeal.Read.val_main_v44 (F := F) Lb := rfl

end Stages

/-- The weights over the extended reals. -/
theorem weights_eq_ref (Lb : (⟨Cert.KernelIdeal.S2x4096, .i32⟩ : BufTy).Contents (Elt Ideal)) :
    Cert.KernelIdeal.KHost.weights (F := Ideal) Lb = Cert.ReferenceIdeal.Read.val_main_v44 (F := Ideal) Lb :=
  weights_eq_ref_any Lb

end Cert.KernelIdeal.KHost

end
-- ==== Proof.PreFacts.lean ====
/-
  The precondition, decoded.  The printed predicate is the conjunction of three statements, each an "and" over every
  position: every logit has absolute value strictly below plus infinity; every label is at least 0 read signed; every
  label is below 32000 read signed.  When the predicate holds, every logit is therefore a real number, and every
  label, read unsigned, is below 32000.
-/
import proofs.«426176_j20177756356941_3_alg».proof.Pre_finite_inputs
import Idealize.ShloMosaic.Lib.ReduceAll
import Idealize.ShloMosaic.Lib.StableHlo.Predicate
import Idealize.ShloMosaic.Lib.ValueIdx
import Idealize.ShloMosaic.PureOps.Ideal
import Idealize.ShloMosaic.PureOps.Ideal.Laws

noncomputable section

namespace Cert.Wnll

open Idealize.ShloMosaic

/-- The rank-0 shape has exactly one index. -/
instance subsingleton_scalar_idx : Subsingleton Cert.Pre_finite_inputs.S_.Idx :=
  ⟨fun a b => funext fun d => d.elim0⟩

/-- An extended real whose absolute value `max x (-x)` is strictly below plus infinity is a real number. -/
theorem real_of_abs_lt_top (x : EReal) (hx : max x (-x) < ⊤) : ∃ r : ℝ, x = (r : EReal) := by
  induction x using EReal.rec with
  | bot => simp at hx
  | coe r => exact ⟨r, rfl⟩
  | top => simp at hx

/-- A 32-bit word that is at least 0 and below 32000 read signed is below 32000 read unsigned. -/
theorem toNat_lt_of_signed_range (v : BitVec 32) (h0 : (0#32 : BitVec 32).toInt ≤ v.toInt)
    (h1 : v.toInt < (32000#32 : BitVec 32).toInt) : v.toNat < 32000 := by
  have e0 : (0#32 : BitVec 32).toInt = 0 := by decide
  have e1 : (32000#32 : BitVec 32).toInt = 32000 := by decide
  rw [e0] at h0
  rw [e1] at h1
  have hv := v.isLt
  rw [BitVec.toInt_eq_toNat_cond] at h0 h1
  split at h0 <;> omega

/-- The f32 pattern 0x7F800000 (exponent all ones, mantissa zero, sign clear) denotes plus infinity. -/
theorem inf_pattern_eq_top : Ideal.ofBits .f32 0x7F800000#32 = ⊤ := by simp [Ideal.ofBits, Ideal.ieee]

variable [Cert.Pre_finite_inputs.Facts]

/-- The three conjuncts of the printed predicate, each read at one position. -/
theorem conjuncts_of_pre (X : FVec Ideal Cert.Pre_finite_inputs.S2x4096x32000 .f32)
    (Lb : IVec Cert.Pre_finite_inputs.S2x4096 32)
    (h : Cert.Pre_finite_inputs.fn (F := Ideal) X Lb = fun _ => 1#1) :
    (∀ i, max (X i) (-(X i)) < ⊤) ∧ (∀ i, (0#32 : BitVec 32).toInt ≤ (Lb i).toInt)
      ∧ (∀ i, (Lb i).toInt < (32000#32 : BitVec 32).toInt) := by
  have h0 := congrFun h ValueIdx.ix0
  dsimp only [Cert.Pre_finite_inputs.fn, andi] at h0
  obtain ⟨h01, hC⟩ := IntOp.andi_eq_one.1 h0
  obtain ⟨hA, hB⟩ := IntOp.andi_eq_one.1 h01
  refine ⟨fun i => ?_, fun i => ?_, fun i => ?_⟩
  · -- at one position the comparison is `|X i| < ofBits 0x7F800000`, and that pattern denotes plus infinity
    have e : Ideal.cmp .olt (max (X i) (-(X i))) (Ideal.ofBits .f32 0x7F800000#32) = 1#1 :=
      Host.reduce_andi_all _ _ _ _ _ hA i
    rw [inf_pattern_eq_top] at e
    simpa only [Ideal.cmp, StableHlo.Predicate.ofBool_eq_one_iff, decide_eq_true_eq] using e
  · have e : IntOp.cmpi .sge (Lb i) 0#32 = 1#1 := Host.reduce_andi_all _ _ _ _ _ hB i
    exact IntOp.cmpi_sge.1 e
  · have e : IntOp.cmpi .slt (Lb i) 32000#32 = 1#1 := Host.reduce_andi_all _ _ _ _ _ hC i
    exact IntOp.cmpi_slt.1 e

/-- Under the precondition every logit is a real number. -/
theorem finite_of_pre (X : FVec Ideal Cert.Pre_finite_inputs.S2x4096x32000 .f32) (Lb : IVec Cert.Pre_finite_inputs.S2x4096 32)
    (h : Cert.Pre_finite_inputs.fn (F := Ideal) X Lb = fun _ => 1#1) : ∀ i, ∃ r : ℝ, X i = (r : EReal) :=
  fun i => real_of_abs_lt_top (X i) ((conjuncts_of_pre X Lb h).1 i)

/-- Under the precondition every label, read unsigned, is below 32000. -/
theorem label_lt_of_pre (X : FVec Ideal Cert.Pre_finite_inputs.S2x4096x32000 .f32) (Lb : IVec Cert.Pre_finite_inputs.S2x4096 32)
    (h : Cert.Pre_finite_inputs.fn (F := Ideal) X Lb = fun _ => 1#1) : ∀ i, (Lb i).toNat < 32000 :=
  fun i => toNat_lt_of_signed_range (Lb i) ((conjuncts_of_pre X Lb h).2.1 i) ((conjuncts_of_pre X Lb h).2.2 i)

end Cert.Wnll

end
-- ==== Proof.lean ====
/-
  The certificate of a weighted cross-entropy loss: a kernel that walks each row of 32000 logits in 10 chunks, carrying
  a running maximum, a running rescaled sum of exponentials and a running pick of the label's logit, and accumulates
  weight times `(log sum + maximum) - picked logit` over the 128 rows of each of 32 tiles per batch row, against the
  reference's one-pass `-log_softmax` gathered at the label, both divided by the sum of the weights.

  The three frames are the programs' runs with the results dropped.  The idealization rewrote nothing.  For the
  equivalence both runs are read as one function of the arguments, the weighted mean loss `Cert.Wnll.G`: the kernel's
  result by the chunked recurrences read row by row and summed over tiles, batch rows and the host's final sum
  (`Cert.KernelIdeal.KValue.kernel_value`), which is the one-pass loss on finite logits with labels in range
  (`Cert.Wnll.lossOnline_eq_lossDirect`); the reference's by its operations read at an index
  (`Cert.ReferenceIdeal.RefValue.result_eq`), the gather landing on the label because the label is in range.  The
  weights are the same host computation on the labels in both programs.  The precondition gives finite logits and
  labels in `[0, 32000)`.
-/
import proofs.«426176_j20177756356941_3_alg».proof.Defs
import proofs.«426176_j20177756356941_3_alg».proof.Proof.Gen.Kernel.Frame
import proofs.«426176_j20177756356941_3_alg».proof.Proof.Gen.KernelIdeal.Frame
import proofs.«426176_j20177756356941_3_alg».proof.Proof.Gen.ReferenceIdeal
import proofs.«426176_j20177756356941_3_alg».proof.Proof.Gen.Pre_finite_inputs
import proofs.«426176_j20177756356941_3_alg».proof.Proof.KernelValue
import proofs.«426176_j20177756356941_3_alg».proof.Proof.RefValue
import proofs.«426176_j20177756356941_3_alg».proof.Proof.RefRunHand
import proofs.«426176_j20177756356941_3_alg».proof.Proof.WeightsEq
import proofs.«426176_j20177756356941_3_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- Both programs end at the weighted mean loss of their arguments. -/
theorem algebraic : Cert.algebraic_KernelIdeal_ReferenceIdeal := by
  intro m ρ m' ρ' hpre hagree
  refine ⟨fun c => Cert.KernelIdeal.KValue.scalarBuf (Cert.Wnll.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.KernelIdeal.KHost.weights (m ((c.tc : Thread Cert.KernelIdeal.nD Cert.KernelIdeal.τ).loc Cert.KernelIdeal.main_arg1)))), ?_, ?_⟩
  · refine (θ_run Cert.KernelIdeal.defs _ _).mono (fun r h c => ⟨?_, ?_, ?_⟩) (Cert.KernelIdeal.Gen.run_main m ρ)
    · exact ((h c).2 Cert.KernelIdeal.main_v50 (Pipeline.mem_restRefs_of Cert.KernelIdeal.main_v50 (by decide) (by decide))).trans
        (Cert.KernelIdeal.KValue.kernel_value m c (Cert.Wnll.finite_of_pre _ _ (hpre c)) (Cert.Wnll.label_lt_of_pre _ _ (hpre c)))
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨(h c).1.trans ?_, (h c).2⟩)
      (Cert.ReferenceIdeal.HandRun.run (F := Ideal) m' ρ')
    rw [(hagree c).1, (hagree c).2,
      Cert.ReferenceIdeal.RefValue.result_eq _ _ (Cert.Wnll.label_lt_of_pre _ _ (hpre c)),
      ← Cert.KernelIdeal.KHost.weights_eq_ref]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
